-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v30)) (v2 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000 : Shape := ⟨1, ![4000000]⟩
abbrev S4000000x4 : Shape := ⟨2, ![4000000, 4]⟩
abbrev S500x128 : Shape := ⟨2, ![500, 128]⟩
abbrev S128x128 : Shape := ⟨2, ![128, 128]⟩
abbrev S100000x500 : Shape := ⟨2, ![100000, 500]⟩
abbrev S_ : Shape := ⟨0, ![]⟩

class Facts : Prop where
  bcast_S_S4000000x4 : S_.BroadcastsInDim S4000000x4 (![] : Fin 0 → Fin S4000000x4.rank)
  reducesTo_S4000000x4_S_d0_1 : S4000000x4.ReducesTo [0, 1] S_
  h_S_ : 0 < S_.numel
  bcast_S_S500x128 : S_.BroadcastsInDim S500x128 (![] : Fin 0 → Fin S500x128.rank)
  reducesTo_S500x128_S_d0_1 : S500x128.ReducesTo [0, 1] S_
  bcast_S_S128x128 : S_.BroadcastsInDim S128x128 (![] : Fin 0 → Fin S128x128.rank)
  reducesTo_S128x128_S_d0_1 : S128x128.ReducesTo [0, 1] S_
  bcast_S_S100000x500 : S_.BroadcastsInDim S100000x500 (![] : Fin 0 → Fin S100000x500.rank)
  reducesTo_S100000x500_S_d0_1 : S100000x500.ReducesTo [0, 1] S_

variable [Facts]

def fn_part1 {F : FTy → Type} [FloatOps F] (main_v13 : IVec S_ 1) (main_v16 : IVec S100000x500 1) : IVec S_ 1 :=
  let main_c_5 : IVec S_ 1 := constantI S_ 1 1#1
  let main_v17 : IVec S_ 1 := (fun x v => Host.reduce IntOp.andi x v reducesTo_S100000x500_S_d0_1 h_S_) main_v16 main_c_5
  let main_v18 : IVec S_ 1 := andi main_v13 main_v17
  main_v18

def fn {F : FTy → Type} [FloatOps F] (main_arg0 : IVec S4000000 32) (main_arg1 : IVec S4000000 32) (main_arg2 : IVec S4000000 32) (main_arg3 : FVec F S4000000x4 .f32) (main_arg4 : FVec F S500x128 .f32) (main_arg5 : FVec F S128x128 .f32) (main_arg6 : FVec F S100000x500 .f32) : IVec S_ 1 :=
  let main_v0 : FVec F S4000000x4 .f32 := Host.absf main_arg3
  let main_cst : FVec F S_ .f32 := constant S_ .f32 0x7F800000#32
  let main_v1 : FVec F S4000000x4 .f32 := broadcastInDim S4000000x4 ![] bcast_S_S4000000x4 main_cst
  let main_v2 : IVec S4000000x4 1 := cmpf .olt main_v0 main_v1
  let main_c : IVec S_ 1 := constantI S_ 1 1#1
  let main_v3 : IVec S_ 1 := (fun x v => Host.reduce IntOp.andi x v reducesTo_S4000000x4_S_d0_1 h_S_) main_v2 main_c
  let main_v4 : FVec F S500x128 .f32 := Host.absf main_arg4
  let main_cst_0 : FVec F S_ .f32 := constant S_ .f32 0x7F800000#32
  let main_v5 : FVec F S500x128 .f32 := broadcastInDim S500x128 ![] bcast_S_S500x128 main_cst_0
  let main_v6 : IVec S500x128 1 := cmpf .olt main_v4 main_v5
  let main_c_1 : IVec S_ 1 := constantI S_ 1 1#1
  let main_v7 : IVec S_ 1 := (fun x v => Host.reduce IntOp.andi x v reducesTo_S500x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S100000x500 .f32 := Host.absf main_arg6
  let main_cst_4 : FVec F S_ .f32 := constant S_ .f32 0x7F800000#32
  let main_v15 : FVec F S100000x500 .f32 := broadcastInDim S100000x500 ![] bcast_S_S100000x500 main_cst_4
  let main_v16 : IVec S100000x500 1 := cmpf .olt main_v14 main_v15
  fn_part1 (F := F) main_v13 main_v16
-- ==== Kernel.lean ====
abbrev S4000000 : Shape := ⟨1, ![4000000]⟩
abbrev S4000000x4 : Shape := ⟨2, ![4000000, 4]⟩
abbrev S500x128 : Shape := ⟨2, ![500, 128]⟩
abbrev S128x128 : Shape := ⟨2, ![128, 128]⟩
abbrev S100000x500 : Shape := ⟨2, ![100000, 500]⟩
abbrev S_ : Shape := ⟨0, ![]⟩
abbrev S4000000x1 : Shape := ⟨2, ![4000000, 1]⟩
abbrev S4000000x2 : Shape := ⟨2, ![4000000, 2]⟩
abbrev S100000x512 : Shape := ⟨2, ![100000, 512]⟩
abbrev S512x128 : Shape := ⟨2, ![512, 128]⟩
abbrev S100000x1 : Shape := ⟨2, ![100000, 1]⟩
abbrev S2000x512 : Shape := ⟨2, ![2000, 512]⟩
abbrev S2000x1 : Shape := ⟨2, ![2000, 1]⟩
abbrev S128x512 : Shape := ⟨2, ![128, 512]⟩
abbrev S512x512 : Shape := ⟨2, ![512, 512]⟩
abbrev S2000 : Shape := ⟨1, ![2000]⟩
abbrev S100000 : Shape := ⟨1, ![100000]⟩

abbrev nBuf : Space → Nat
  | .hbm => 62
  | .vmem => 10
  | .smem => 0
  | _ => 0

abbrev bufTy : (tb : Table) → Fin (tcTables nBuf tb) → BufTy
  | .hbm, ⟨0, _⟩ => ⟨S4000000, .i32⟩
  | .hbm, ⟨1, _⟩ => ⟨S4000000, .i32⟩
  | .hbm, ⟨2, _⟩ => ⟨S4000000, .i32⟩
  | .hbm, ⟨3, _⟩ => ⟨S4000000x4, .f32⟩
  | .hbm, ⟨4, _⟩ => ⟨S500x128, .f32⟩
  | .hbm, ⟨5, _⟩ => ⟨S128x128, .f32⟩
  | .hbm, ⟨6, _⟩ => ⟨S100000x500, .f32⟩
  | .hbm, ⟨7, _⟩ => ⟨S_, .i32⟩
  | .hbm, ⟨8, _⟩ => ⟨S4000000, .i32⟩
  | .hbm, ⟨9, _⟩ => ⟨S4000000, .i32⟩
  | .hbm, ⟨10, _⟩ => ⟨S4000000x1, .f32⟩
  | .hbm, ⟨11, _⟩ => ⟨S4000000, .f32⟩
  | .hbm, ⟨12, _⟩ => ⟨S_, .f32⟩
  | .hbm, ⟨13, _⟩ => ⟨S_, .f32⟩
  | .hbm, ⟨14, _⟩ => ⟨S4000000, .f32⟩
  | .hbm, ⟨15, _⟩ => ⟨S4000000, .f32⟩
  | .hbm, ⟨16, _⟩ => ⟨S_, .f32⟩
  | .hbm, ⟨17, _⟩ => ⟨S100000x500, .f32⟩
  | .hbm, ⟨18, _⟩ => ⟨S_, .i32⟩
  | .hbm, ⟨19, _⟩ => ⟨S4000000, .i32⟩
  | .hbm, ⟨20, _⟩ => ⟨S4000000, .i1⟩
  | .hbm, ⟨21, _⟩ => ⟨S_, .i32⟩
  | .hbm, ⟨22, _⟩ => ⟨S4000000, .i32⟩
  | .hbm, ⟨23, _⟩ => ⟨S4000000, .i32⟩
  | .hbm, ⟨24, _⟩ => ⟨S4000000, .i32⟩
  | .hbm, ⟨25, _⟩ => ⟨S_, .i32⟩
  | .hbm, ⟨26, _⟩ => ⟨S4000000, .i32⟩
  | .hbm, ⟨27, _⟩ => ⟨S4000000, .i1⟩
  | .hbm, ⟨28, _⟩ => ⟨S_, .i32⟩
  | .hbm, ⟨29, _⟩ => ⟨S4000000, .i32⟩
  | .hbm, ⟨30, _⟩ => ⟨S4000000, .i32⟩
  | .hbm, ⟨31, _⟩ => ⟨S4000000, .i32⟩
  | .hbm, ⟨32, _⟩ => ⟨S4000000x1, .i32⟩
  | .hbm, ⟨33, _⟩ => ⟨S4000000x1, .i32⟩
  | .hbm, ⟨34, _⟩ => ⟨S4000000x2, .i32⟩
  | .hbm, ⟨35, _⟩ => ⟨S100000x500, .f32⟩
  | .hbm, ⟨36, _⟩ => ⟨S_, .i32⟩
  | .hbm, ⟨37, _⟩ => ⟨S_, .f32⟩
  | .hbm, ⟨38, _⟩ => ⟨S100000x512, .f32⟩
  | .hbm, ⟨39, _⟩ => ⟨S_, .i32⟩
  | .hbm, ⟨40, _⟩ => ⟨S_, .f32⟩
  | .hbm, ⟨41, _⟩ => ⟨S100000x512, .f32⟩
  | .hbm, ⟨42, _⟩ => ⟨S_, .i32⟩
  | .hbm, ⟨43, _⟩ => ⟨S_, .f32⟩
  | .hbm, ⟨44, _⟩ => ⟨S512x128, .f32⟩
  | .hbm, ⟨45, _⟩ => ⟨S100000x1, .f32⟩
  | .hbm, ⟨46, _⟩ => ⟨S100000x1, .f32⟩
  | .hbm, ⟨47, _⟩ => ⟨S100000, .f32⟩
  | .hbm, ⟨48, _⟩ => ⟨S100000, .f32⟩
  | .hbm, ⟨49, _⟩ => ⟨S100000, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .local _ .vmem, ⟨0, _⟩ => ⟨S2000x512, .f32⟩
  | .local _ .vmem, ⟨1, _⟩ => ⟨S2000x512, .f32⟩
  | .local _ .vmem, ⟨2, _⟩ => ⟨S2000x512, .f32⟩
  | .local _ .vmem, ⟨3, _⟩ => ⟨S2000x512, .f32⟩
  | .local _ .vmem, ⟨4, _⟩ => ⟨S512x128, .f32⟩
  | .local _ .vmem, ⟨5, _⟩ => ⟨S128x128, .f32⟩
  | .local _ .vmem, ⟨6, _⟩ => ⟨S2000x1, .f32⟩
  | .local _ .vmem, ⟨7, _⟩ => ⟨S2000x1, .f32⟩
  | .local _ .vmem, ⟨8, _⟩ => ⟨S2000x1, .f32⟩
  | .local _ .vmem, ⟨9, _⟩ => ⟨S2000x1, .f32⟩
  | _, _ => ⟨S4000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_v7 : Ref sig .tc := ⟨.hbm, 20, rfl⟩
abbrev main_c_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_c_4 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_5 : Ref sig .tc := ⟨.hbm, 36, rfl⟩
abbrev main_call1_v0 : Ref sig .tc := ⟨.hbm, 37, rfl⟩
abbrev main_v20 : Ref sig .tc := ⟨.hbm, 38, rfl⟩
abbrev main_c_6 : Ref sig .tc := ⟨.hbm, 39, rfl⟩
abbrev main_call2_v0 : Ref sig .tc := ⟨.hbm, 40, rfl⟩
abbrev main_v21 : Ref sig .tc := ⟨.hbm, 41, rfl⟩
abbrev main_c_7 : Ref sig .tc := ⟨.hbm, 42, rfl⟩
abbrev main_call3_v0 : Ref sig .tc := ⟨.hbm, 43, rfl⟩
abbrev main_v22 : Ref sig .tc := ⟨.hbm, 44, rfl⟩
abbrev main_v23_0 : Ref sig .tc := ⟨.hbm, 45, rfl⟩
abbrev main_v23_1 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_8 : Ref sig .tc := ⟨.hbm, 50, rfl⟩
abbrev main_v27 : Ref sig .tc := ⟨.hbm, 51, rfl⟩
abbrev main_cst_9 : Ref sig .tc := ⟨.hbm, 52, rfl⟩
abbrev main_v28 : Ref sig .tc := ⟨.hbm, 53, rfl⟩
abbrev main_cst_10 : Ref sig .tc := ⟨.hbm, 54, rfl⟩
abbrev main_v29 : Ref sig .tc := ⟨.hbm, 55, rfl⟩
abbrev main_cst_11 : Ref sig .tc := ⟨.hbm, 56, rfl⟩
abbrev main_v30 : Ref sig .tc := ⟨.hbm, 57, rfl⟩
abbrev main_cst_12 : Ref sig .tc := ⟨.hbm, 58, rfl⟩
abbrev main_v31 : Ref sig .tc := ⟨.hbm, 59, rfl⟩
abbrev main_cst_13 : Ref sig .tc := ⟨.hbm, 60, rfl⟩
abbrev main_v32 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S4000000 : S_.BroadcastsInDim S4000000 (![] : Fin 0 → Fin S4000000.rank)
  slices_S4000000x4_S4000000x1_0_0 : S4000000x4.Slices ![0, 0] S4000000x1
  shapeCasts_S4000000x1_S4000000 : S4000000x1.ShapeCasts S4000000
  bcast_S_S100000x500 : S_.BroadcastsInDim S100000x500 (![] : Fin 0 → Fin S100000x500.rank)
  bcast_S4000000_S4000000x1_0 : S4000000.BroadcastsInDim S4000000x1 (![0] : Fin 1 → Fin S4000000x1.rank)
  concatenates_S4000000x1_S4000000x1_S4000000x2_d1 : Shape.Concatenates [S4000000x1, S4000000x1] S4000000x2 1
  pads_S100000x500_S100000x512_000_0120 : S100000x500.Pads (![0, 0] : Fin 2 → Nat) ![0, 12] ![0, 0] S100000x512
  h_S_ : 0 < S_.numel
  pads_S500x128_S512x128_0120_000 : S500x128.Pads (![0, 0] : Fin 2 → Nat) ![12, 0] ![0, 0] S512x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x128_S128x128_0_0 : ∀ a, (![0, 0] : Fin 2 → Nat) a + S128x128.size a ≤ S128x128.size a
  h_S128x128 : 0 < S128x128.numel
  transposes_S512x128_p1_0_S128x512 : S512x128.Transposes [1, 0] S128x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  bitsLt_bf16_f32 : FTy.bits .bf16 < FTy.bits .f32
  reduces_S2000x512_S2000 : S2000x512.Reduces [1] S2000
  shapeCasts_S2000_S2000x1 : S2000.ShapeCasts S2000x1
  inb_S2000x1_S2000x1_0_0 : ∀ a, (![0, 0] : Fin 2 → Nat) a + S2000x1.size a ≤ S2000x1.size a
  h_S2000x1 : 0 < S2000x1.numel
  shapeCasts_S100000x1_S100000 : S100000x1.ShapeCasts S100000
  reducesTo_S100000_S_d0 : S100000.ReducesTo [0] S_
  scatter_S100000x500_S4000000x2_S4000000_n_01_01_1_wf : ScatterDims.WF S100000x500 S4000000x2 S4000000 [] [0, 1] [0, 1] 1
  dot_S128x128_S128x512_S128x512_1_0_0_1_n_n_wf : DotDims.WF S128x128 S128x512 S128x512 [1] [0] [0] [1] [] []
  dot_S512x128_S128x512_S512x512_1_0_0_1_n_n_wf : DotDims.WF S512x128 S128x512 S512x512 [1] [0] [0] [1] [] []
  dot_S2000x512_S512x512_S2000x512_1_0_0_1_n_n_wf : DotDims.WF S2000x512 S512x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S100000x512.size a
  hwx0_1 : ∀ i : grid0.Coords, EltTy.bits .f32 = 32 ∨ (Rect.block (s := S100000x512) S2000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S100000x1.size a
  hwx0_4 : ∀ i : grid0.Coords, EltTy.bits .f32 = 32 ∨ (Rect.block (s := S100000x1) S2000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x1.size a ≤ S100000x1.size a
  hwx0_5 : ∀ i : grid0.Coords, EltTy.bits .f32 = 32 ∨ (Rect.block (s := S100000x1) S2000x1.size (cc0_transform_5 i) (hinb0_5 i)).WholeWords (EltTy.packing .f32)

variable [Facts₀]

def scatter_S100000x500_S4000000x2_S4000000_n_01_01_1 : ScatterDims S100000x500 S4000000x2 S4000000 where
  updateWindowDims := []
  insertedWindowDims := [0, 1]
  scatterDimsToOperandDims := [0, 1]
  indexVectorDim := 1
  wf := scatter_S100000x500_S4000000x2_S4000000_n_01_01_1_wf
def dot_S128x128_S128x512_S128x512_1_0_0_1_n_n : DotDims S128x128 S128x512 S128x512 where
  lhsContracting := [1]
  rhsContracting := [0]
  lhsNonContracting := [0]
  rhsNonContracting := [1]
  lhsBatch := []
  rhsBatch := []
  wf := dot_S128x128_S128x512_S128x512_1_0_0_1_n_n_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf

abbrev win0_0 : Pipeline.Window sig grid0 :=
  Pipeline.Window.ofSpec (Memref.whole main_v20) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23_0) S2000x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v23_1) S2000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4000000 : Shape := ⟨1, ![4000000]⟩
abbrev S4000000x4 : Shape := ⟨2, ![4000000, 4]⟩
abbrev S500x128 : Shape := ⟨2, ![500, 128]⟩
abbrev S128x128 : Shape := ⟨2, ![128, 128]⟩
abbrev S100000x500 : Shape := ⟨2, ![100000, 500]⟩
abbrev S_ : Shape := ⟨0, ![]⟩
abbrev S4000000x1 : Shape := ⟨2, ![4000000, 1]⟩
abbrev S4000000x2 : Shape := ⟨2, ![4000000, 2]⟩
abbrev S128x500 : Shape := ⟨2, ![128, 500]⟩
abbrev S500x500 : Shape := ⟨2, ![500, 500]⟩
abbrev S100000 : Shape := ⟨1, ![100000]⟩

abbrev nBuf : Space → Nat
  | .hbm => 70
  | .vmem => 0
  | .smem => 0
  | _ => 0

abbrev bufTy : (tb : Table) → Fin (tcTables nBuf tb) → BufTy
  | .hbm, ⟨0, _⟩ => ⟨S4000000, .i32⟩
  | .hbm, ⟨1, _⟩ => ⟨S4000000, .i32⟩
  | .hbm, ⟨2, _⟩ => ⟨S4000000, .i32⟩
  | .hbm, ⟨3, _⟩ => ⟨S4000000x4, .f32⟩
  | .hbm, ⟨4, _⟩ => ⟨S500x128, .f32⟩
  | .hbm, ⟨5, _⟩ => ⟨S128x128, .f32⟩
  | .hbm, ⟨6, _⟩ => ⟨S100000x500, .f32⟩
  | .hbm, ⟨7, _⟩ => ⟨S_, .i32⟩
  | .hbm, ⟨8, _⟩ => ⟨S4000000, .i32⟩
  | .hbm, ⟨9, _⟩ => ⟨S4000000, .i32⟩
  | .hbm, ⟨10, _⟩ => ⟨S4000000x1, .f32⟩
  | .hbm, ⟨11, _⟩ => ⟨S4000000, .f32⟩
  | .hbm, ⟨12, _⟩ => ⟨S_, .f32⟩
  | .hbm, ⟨13, _⟩ => ⟨S_, .f32⟩
  | .hbm, ⟨14, _⟩ => ⟨S4000000, .f32⟩
  | .hbm, ⟨15, _⟩ => ⟨S4000000, .f32⟩
  | .hbm, ⟨16, _⟩ => ⟨S_, .f32⟩
  | .hbm, ⟨17, _⟩ => ⟨S100000x500, .f32⟩
  | .hbm, ⟨18, _⟩ => ⟨S_, .i32⟩
  | .hbm, ⟨19, _⟩ => ⟨S4000000, .i32⟩
  | .hbm, ⟨20, _⟩ => ⟨S4000000, .i1⟩
  | .hbm, ⟨21, _⟩ => ⟨S_, .i32⟩
  | .hbm, ⟨22, _⟩ => ⟨S4000000, .i32⟩
  | .hbm, ⟨23, _⟩ => ⟨S4000000, .i32⟩
  | .hbm, ⟨24, _⟩ => ⟨S4000000, .i32⟩
  | .hbm, ⟨25, _⟩ => ⟨S_, .i32⟩
  | .hbm, ⟨26, _⟩ => ⟨S4000000, .i32⟩
  | .hbm, ⟨27, _⟩ => ⟨S4000000, .i1⟩
  | .hbm, ⟨28, _⟩ => ⟨S_, .i32⟩
  | .hbm, ⟨29, _⟩ => ⟨S4000000, .i32⟩
  | .hbm, ⟨30, _⟩ => ⟨S4000000, .i32⟩
  | .hbm, ⟨31, _⟩ => ⟨S4000000, .i32⟩
  | .hbm, ⟨32, _⟩ => ⟨S4000000x1, .i32⟩
  | .hbm, ⟨33, _⟩ => ⟨S4000000x1, .i32⟩
  | .hbm, ⟨34, _⟩ => ⟨S4000000x2, .i32⟩
  | .hbm, ⟨35, _⟩ => ⟨S100000x500, .f32⟩
  | .hbm, ⟨36, _⟩ => ⟨S128x500, .f32⟩
  | .hbm, ⟨37, _⟩ => ⟨S128x500, .f32⟩
  | .hbm, ⟨38, _⟩ => ⟨S500x500, .f32⟩
  | .hbm, ⟨39, _⟩ => ⟨S_, .f32⟩
  | .hbm, ⟨40, _⟩ => ⟨S500x500, .f32⟩
  | .hbm, ⟨41, _⟩ => ⟨S500x500, .f32⟩
  | .hbm, ⟨42, _⟩ => ⟨S100000x500, .f32⟩
  | .hbm, ⟨43, _⟩ => ⟨S100000x500, .f32⟩
  | .hbm, ⟨44, _⟩ => ⟨S_, .f32⟩
  | .hbm, ⟨45, _⟩ => ⟨S100000x500, .f32⟩
  | .hbm, ⟨46, _⟩ => ⟨S100000x500, .f32⟩
  | .hbm, ⟨47, _⟩ => ⟨S_, .f32⟩
  | .hbm, ⟨48, _⟩ => ⟨S100000, .f32⟩
  | .hbm, ⟨49, _⟩ => ⟨S_, .f32⟩
  | .hbm, ⟨50, _⟩ => ⟨S100000, .f32⟩
  | .hbm, ⟨51, _⟩ => ⟨S100000, .f32⟩
  | .hbm, ⟨52, _⟩ => ⟨S_, .f32⟩
  | .hbm, ⟨53, _⟩ => ⟨S100000, .f32⟩
  | .hbm, ⟨54, _⟩ => ⟨S_, .f32⟩
  | .hbm, ⟨55, _⟩ => ⟨S100000, .f32⟩
  | .hbm, ⟨56, _⟩ => ⟨S100000, .f32⟩
  | .hbm, ⟨57, _⟩ => ⟨S100000, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S4000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_v7 : Ref sig .tc := ⟨.hbm, 20, rfl⟩
abbrev main_c_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_c_4 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call1_cst : Ref sig .tc := ⟨.hbm, 39, rfl⟩
abbrev main_call1_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_v30 : Ref sig .tc := ⟨.hbm, 51, rfl⟩
abbrev main_cst_8 : Ref sig .tc := ⟨.hbm, 52, rfl⟩
abbrev main_v31 : Ref sig .tc := ⟨.hbm, 53, rfl⟩
abbrev main_cst_9 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_10 : Ref sig .tc := ⟨.hbm, 58, rfl⟩
abbrev main_v35 : Ref sig .tc := ⟨.hbm, 59, rfl⟩
abbrev main_cst_11 : Ref sig .tc := ⟨.hbm, 60, rfl⟩
abbrev main_v36 : Ref sig .tc := ⟨.hbm, 61, rfl⟩
abbrev main_cst_12 : Ref sig .tc := ⟨.hbm, 62, rfl⟩
abbrev main_v37 : Ref sig .tc := ⟨.hbm, 63, rfl⟩
abbrev main_cst_13 : Ref sig .tc := ⟨.hbm, 64, rfl⟩
abbrev main_v38 : Ref sig .tc := ⟨.hbm, 65, rfl⟩
abbrev main_cst_14 : Ref sig .tc := ⟨.hbm, 66, rfl⟩
abbrev main_v39 : Ref sig .tc := ⟨.hbm, 67, rfl⟩
abbrev main_cst_15 : Ref sig .tc := ⟨.hbm, 68, rfl⟩
abbrev main_v40 : Ref sig .tc := ⟨.hbm, 69, rfl⟩

abbrev nD : Nat := 1
abbrev τ : Topo := Topo.v7x

variable {F : FTy → Type} [FloatOps F]

class Facts₀ : Prop where
  bcast_S_S4000000 : S_.BroadcastsInDim S4000000 (![] : Fin 0 → Fin S4000000.rank)
  slices_S4000000x4_S4000000x1_0_0 : S4000000x4.Slices ![0, 0] S4000000x1
  shapeCasts_S4000000x1_S4000000 : S4000000x1.ShapeCasts S4000000
  bcast_S_S100000x500 : S_.BroadcastsInDim S100000x500 (![] : Fin 0 → Fin S100000x500.rank)
  bcast_S4000000_S4000000x1_0 : S4000000.BroadcastsInDim S4000000x1 (![0] : Fin 1 → Fin S4000000x1.rank)
  concatenates_S4000000x1_S4000000x1_S4000000x2_d1 : Shape.Concatenates [S4000000x1, S4000000x1] S4000000x2 1
  transposes_S500x128_S128x500_1_0 : S500x128.Transposes [1, 0] S128x500
  bcast_S_S500x500 : S_.BroadcastsInDim S500x500 (![] : Fin 0 → Fin S500x500.rank)
  reducesTo_S100000x500_S100000_d1 : S100000x500.ReducesTo [1] S100000
  h_S_ : 0 < S_.numel
  bcast_S_S100000 : S_.BroadcastsInDim S100000 (![] : Fin 0 → Fin S100000.rank)
  reducesTo_S100000_S_d0 : S100000.ReducesTo [0] S_
  scatter_S100000x500_S4000000x2_S4000000_n_01_01_1_wf : ScatterDims.WF S100000x500 S4000000x2 S4000000 [] [0, 1] [0, 1] 1
  dot_S128x128_S128x500_S128x500_1_0_0_1_n_n_wf : DotDims.WF S128x128 S128x500 S128x500 [1] [0] [0] [1] [] []
  dot_S500x128_S128x500_S500x500_1_0_0_1_n_n_wf : DotDims.WF S500x128 S128x500 S500x500 [1] [0] [0] [1] [] []
  dot_S100000x500_S500x500_S100000x500_1_0_0_1_n_n_wf : DotDims.WF S100000x500 S500x500 S100000x500 [1] [0] [0] [1] [] []

variable [Facts₀]

def scatter_S100000x500_S4000000x2_S4000000_n_01_01_1 : ScatterDims S100000x500 S4000000x2 S4000000 where
  updateWindowDims := []
  insertedWindowDims := [0, 1]
  scatterDimsToOperandDims := [0, 1]
  indexVectorDim := 1
  wf := scatter_S100000x500_S4000000x2_S4000000_n_01_01_1_wf
def dot_S128x128_S128x500_S128x500_1_0_0_1_n_n : DotDims S128x128 S128x500 S128x500 where
  lhsContracting := [1]
  rhsContracting := [0]
  lhsNonContracting := [0]
  rhsNonContracting := [1]
  lhsBatch := []
  rhsBatch := []
  wf := dot_S128x128_S128x500_S128x500_1_0_0_1_n_n_wf
def dot_S500x128_S128x500_S500x500_1_0_0_1_n_n : DotDims S500x128 S128x500 S500x500 where
  lhsContracting := [1]
  rhsContracting := [0]
  lhsNonContracting := [0]
  rhsNonContracting := [1]
  lhsBatch := []
  rhsBatch := []
  wf := dot_S500x128_S128x500_S500x500_1_0_0_1_n_n_wf
def dot_S100000x500_S500x500_S100000x500_1_0_0_1_n_n : DotDims S100000x500 S500x500 S100000x500 where
  lhsContracting := [1]
  rhsContracting := [0]
  lhsNonContracting := [0]
  rhsNonContracting := [1]
  lhsBatch := []
  rhsBatch := []
  wf := dot_S100000x500_S500x500_S100000x500_1_0_0_1_n_n_wf

class Facts : Prop extends Facts₀ where

variable [Facts]
-- ==== Proof.PadSum.lean ====
/-
  The per-firm losses as row formulas on the extended reals, and their invariance under zero padding.

  For one firm, with `s p` the amount it supplied of product `p`, `v j` its inventory of product `j`, `E` the
  product embeddings and `B` the bilinear form:

    att p j    = max (∑ d, E p d * ∑ k, B d k * E j k) 0        attention of product p on product j
    consumed j = ∑ p, s p * att p j                               what the firm consumes of product j
    debtRow    = w * ∑ j, max (consumed j - v j) 0                weighted shortfall
    consRow    = w * ∑ j, consumed j                              weighted consumption

  Extending the product axis from `n` to `N ≥ n` entries, every new entry of `s`, `v` and every new row of `E` being
  zero, changes none of them: a new row of `E` makes its attention column zero (`B d k * 0 = 0`, `E p d * 0 = 0`,
  `max 0 0 = 0`), so a new `consumed j` is zero and its shortfall is `max (0 - 0) 0 = 0`; a new `s p` contributes
  `0 * att p j = 0`; and a finite sum whose terms vanish from position `n` on is the sum of its first `n` terms. On
  the extended reals `x * 0 = 0` for every `x`, the infinities included, so nothing here asks the entries to be finite.
-/
import Mathlib.Data.EReal.Operations
import Mathlib.Algebra.BigOperators.Fin

noncomputable section

namespace Cert.Inventory

/-- A finite sum over `Fin N` whose terms vanish from position `n` on is the sum of its first `n` terms. -/
theorem sum_eq_sum_castLE {M : Type} [AddCommMonoid M] {n N : ℕ} (h : n ≤ N) (f : Fin N → M)
    (hz : ∀ i : Fin N, n ≤ i.val → f i = 0) : ∑ i : Fin N, f i = ∑ i : Fin n, f (Fin.castLE h i) := by
  obtain ⟨e, rfl⟩ := Nat.exists_eq_add_of_le h
  rw [Fin.sum_univ_add, Finset.sum_eq_zero (s := Finset.univ) (f := fun i : Fin e => f (Fin.natAdd n i))
    (fun i _ => hz _ (by simp)), add_zero]
  rfl

section Formulas
variable {ι κ : Type} [Fintype ι] [Fintype κ]

/-- Attention of product `p` on product `j`: the bilinear form `E p · B · (E j)ᵀ`, clipped below at zero. -/
def att (E : ι → κ → EReal) (B : κ → κ → EReal) (p j : ι) : EReal :=
  max (∑ d, E p d * ∑ k, B d k * E j k) 0

/-- What the firm consumes of product `j`: its supplied amounts weighted by attention column `j`. -/
def consumed (s : ι → EReal) (E : ι → κ → EReal) (B : κ → κ → EReal) (j : ι) : EReal :=
  ∑ p, s p * att E B p j

/-- The firm's weighted shortfall: consumption above inventory, summed over the products. -/
def debtRow (w : EReal) (s v : ι → EReal) (E : ι → κ → EReal) (B : κ → κ → EReal) : EReal :=
  w * ∑ j, max (consumed s E B j - v j) 0

/-- The firm's weighted consumption, summed over the products. -/
def consRow (w : EReal) (s : ι → EReal) (E : ι → κ → EReal) (B : κ → κ → EReal) : EReal :=
  w * ∑ j, consumed s E B j

end Formulas

/-- `x'` extends `x` from `n` to `N` entries by zeros. -/
structure ZeroExt {n N : ℕ} (h : n ≤ N) {α : Type} [Zero α] (x : Fin n → α) (x' : Fin N → α) : Prop where
  inside : ∀ i : Fin n, x' (Fin.castLE h i) = x i
  beyond : ∀ i : Fin N, n ≤ i.val → x' i = 0

section Padding
variable {κ : Type} [Fintype κ] {n N : ℕ} (h : n ≤ N)
variable {s v : Fin n → EReal} {s' v' : Fin N → EReal} {E : Fin n → κ → EReal} {E' : Fin N → κ → EReal}
variable (B : κ → κ → EReal)

/-- Between two old products the attention is the old one. -/
theorem att_inside (hE : ZeroExt h E E') (p j : Fin n) :
    att E' B (Fin.castLE h p) (Fin.castLE h j) = att E B p j := by
  unfold att; simp only [hE.inside]

/-- On a new product the attention of every product is zero. -/
theorem att_beyond (hE : ZeroExt h E E') (p j : Fin N) (hj : n ≤ j.val) : att E' B p j = 0 := by
  unfold att
  simp only [hE.beyond j hj, Pi.zero_apply, mul_zero, Finset.sum_const_zero, max_self]

/-- Consumption of an old product is unchanged: the new supplied amounts are zero. -/
theorem consumed_inside (hs : ZeroExt h s s') (hE : ZeroExt h E E') (j : Fin n) :
    consumed s' E' B (Fin.castLE h j) = consumed s E B j := by
  unfold consumed
  rw [sum_eq_sum_castLE h _ (fun p hp => by rw [hs.beyond p hp, zero_mul])]
  exact Finset.sum_congr rfl fun p _ => by rw [hs.inside, att_inside h B hE]

/-- Consumption of a new product is zero. -/
theorem consumed_beyond (hE : ZeroExt h E E') (j : Fin N) (hj : n ≤ j.val) : consumed s' E' B j = 0 := by
  unfold consumed
  exact Finset.sum_eq_zero fun p _ => by rw [att_beyond h B hE p j hj, mul_zero]

/-- The weighted shortfall does not see the padding. -/
theorem debtRow_pad (w : EReal) (hs : ZeroExt h s s') (hv : ZeroExt h v v') (hE : ZeroExt h E E') :
    debtRow w s' v' E' B = debtRow w s v E B := by
  unfold debtRow
  rw [sum_eq_sum_castLE h _ (fun j hj => by
    rw [consumed_beyond h B hE j hj, hv.beyond j hj, sub_zero, max_self])]
  exact congrArg (w * ·) (Finset.sum_congr rfl fun j _ => by rw [consumed_inside h B hs hE, hv.inside])

/-- Nor does the weighted consumption. -/
theorem consRow_pad (w : EReal) (hs : ZeroExt h s s') (hE : ZeroExt h E E') :
    consRow w s' E' B = consRow w s E B := by
  unfold consRow
  rw [sum_eq_sum_castLE h _ (fun j hj => consumed_beyond h B hE j hj)]
  exact congrArg (w * ·) (Finset.sum_congr rfl fun j _ => consumed_inside h B hs hE j)

end Padding

end Cert.Inventory

end
-- ==== Proof.LibColumn.lean ====
/-
  Column-shaped values read at an index given by coordinates, and a lane sum read as a finite sum.

  A row-wise reduction that keeps its axis (`sum(…, axis=1, keepdims=True)`) leaves an `[a, 1]` column. Three re-layings
  of such a column occur whenever it meets a full `[a, b]` tile: the cast of the `[a]` vector of sums to the column, the
  column broadcast along the rows of the tile, and (for the other operand's sums) the column transposed to a `[1, b]` row,
  which the library's `transpose_ix2_apply` and `broadcastTo_1b_ab_apply` already read. Each lemma states what the
  re-laid value holds at `(p, c)` in terms of the original vector, for indices built by `ix1` / `ix2`, so that it applies
  to a printed operation by unification. Generic in the extents and in the element type.
-/
import Idealize.ShloMosaic.Lib.ValueLayout
import Idealize.ShloMosaic.PureOps.Ideal.Laws

namespace Cert.Lib.Column

open Idealize.ShloMosaic Idealize.ShloMosaic.ValueIdx

variable {α : Type}

/-- An `[a]` vector cast to the column `[a, 1]` reads, at `(i, u)`, the vector's entry `i`, whatever the unit
    coordinate `u`: both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`: every column of the
    result is the operand. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an `[a, d]` block (a float `multi_reduction <add>` over axis 1 from the neutral
    accumulator), read on the extended reals at row `i`, is the finite sum of the row's `d` entries. -/
theorem rowSum_apply {φ : FTy} {a d : ℕ} (src : FVec Ideal ⟨2, ![a, d]⟩ φ) (acc : BitVec φ.bits)
    (h : (⟨2, ![a, d]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin d, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Column
-- ==== Proof.LibPlainDot.lean ====
/-
  A plain matrix product read at an index, on the extended reals.

  A `tpu.matmul` (or any contraction) with dimension numbers `[1] x [0]`, no batch axes, of an `[M, K]` operand by a
  `[K, N]` operand into the zero accumulator holds, at `(p, q)`, the finite sum over the contracted coordinate `x` of
  `lhs (p, x) * rhs (x, q)`. Stated for the dimension record spelt out with its six lists, for any extents and any
  evidence of well-formedness, so that it applies to a printed record by unfolding its name; generic in the two operand
  formats (a product of bf16 operands accumulated in f32 reads the same way: a format change is the identity here).
-/
import Idealize.ShloMosaic.Lib.ValueIdx
import Idealize.ShloMosaic.PureOps.Ideal.Laws

namespace Cert.Lib.PlainDot

open Idealize.ShloMosaic Idealize.ShloMosaic.ValueIdx

/-- The plain product into the zero accumulator at `(p, q)` is `∑ x, lhs (p, x) * rhs (x, q)`. -/
theorem plainDot_apply {M K N : ℕ} {φ₁ φ₂ : FTy}
    (wf : DotDims.WF ⟨2, ![M, K]⟩ ⟨2, ![K, N]⟩ ⟨2, ![M, N]⟩ [1] [0] [0] [1] [] [])
    (lhs : FVec Ideal ⟨2, ![M, K]⟩ φ₁) (rhs : FVec Ideal ⟨2, ![K, N]⟩ φ₂) (p : Fin M) (q : Fin N) :
    FloatOps.matmul (⟨[1], [0], [0], [1], [], [], wf⟩ : DotDims ⟨2, ![M, K]⟩ ⟨2, ![K, N]⟩ ⟨2, ![M, N]⟩) none lhs rhs
        (constant ⟨2, ![M, N]⟩ .f32 0x00000000#32) (ix2 p q)
      = ∑ x : Fin K, lhs (ix2 p x) * rhs (ix2 x q) := by
  rw [Ideal.matmul_constant_zero_apply,
    ← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun x _ => ?_
  have hx := contrEquiv1_symm_val (⟨[1], [0], [0], [1], [], [], wf⟩ : DotDims ⟨2, ![M, K]⟩ ⟨2, ![K, N]⟩ ⟨2, ![M, N]⟩) K rfl rfl x
  have el : DotDims.lhsIdx (⟨[1], [0], [0], [1], [], [], wf⟩ : DotDims ⟨2, ![M, K]⟩ ⟨2, ![K, N]⟩ ⟨2, ![M, N]⟩) (ix2 p q)
      ((contrEquiv1 (⟨[1], [0], [0], [1], [], [], wf⟩ : DotDims ⟨2, ![M, K]⟩ ⟨2, ![K, N]⟩ ⟨2, ![M, N]⟩) K rfl rfl).symm x) = ix2 p x :=
    funext fun a => Fin.ext (by
      match a with
      | ⟨0, _⟩ => rfl
      | ⟨1, _⟩ => exact (DotDims.lhsIdx_val_of_single _ rfl _ _).trans hx)
  have er : DotDims.rhsIdx (⟨[1], [0], [0], [1], [], [], wf⟩ : DotDims ⟨2, ![M, K]⟩ ⟨2, ![K, N]⟩ ⟨2, ![M, N]⟩) (ix2 p q)
      ((contrEquiv1 (⟨[1], [0], [0], [1], [], [], wf⟩ : DotDims ⟨2, ![M, K]⟩ ⟨2, ![K, N]⟩ ⟨2, ![M, N]⟩) K rfl rfl).symm x) = ix2 x q :=
    funext fun a => Fin.ext (by
      match a with
      | ⟨0, _⟩ => exact (DotDims.rhsIdx_val_of_single _ rfl _ _).trans hx
      | ⟨1, _⟩ => rfl)
  rw [el, er]

end Cert.Lib.PlainDot
-- ==== Proof.KerRows.lean ====
/-
  What the kernel body stores, read one firm at a time.

  The body holds a tile of 2000 firms: `s` the tile of the (padded) supply table, `v` the tile of the (padded) inventory,
  `E` the (padded) embeddings and `B` the bilinear form. It builds `B · Eᵀ`, then `E · (B · Eᵀ)` clipped at zero, multiplies
  the supply tile by it, and stores per firm ten times the summed shortfall and once the summed consumption, each as a
  `[2000, 1]` column. Read at row `q` of the tile these are the row formulas `debtRow` and `consRow` over the 512 padded
  products: each matrix product is a finite sum over its contracted coordinate, the change to bf16 and back is the
  identity on the extended reals, the lane sum is a finite sum, and the column holds the vector of sums.
-/
import proofs.«168744_j74801150427802_1_alg».proof.Proof.Gen.KernelIdeal.Skeleton
import proofs.«168744_j74801150427802_1_alg».proof.Proof.PadSum
import proofs.«168744_j74801150427802_1_alg».proof.Proof.LibColumn
import proofs.«168744_j74801150427802_1_alg».proof.Proof.LibPlainDot
import Idealize.ShloMosaic.Lib.ValueLayout

noncomputable section

namespace Cert.KernelIdeal.Rows

open Cert.KernelIdeal Cert.KernelIdeal.Gen Idealize.ShloMosaic Idealize.ShloMosaic.ValueIdx Cert.Inventory
open Cert.Lib.Column Cert.Lib.PlainDot

variable (v0 : Vec Ideal S512x128 .f32) (v2 : Vec Ideal S128x128 .f32) (v8 v13 : Vec Ideal S2000x512 .f32)

/-- The padded embeddings by coordinates. -/
abbrev emb : Fin 512 → Fin 128 → EReal := fun p d => v0 (ix2 p d)
/-- The bilinear form by coordinates. -/
abbrev bil : Fin 128 → Fin 128 → EReal := fun d k => v2 (ix2 d k)
/-- Row `q` of a `[2000, 512]` tile. -/
abbrev tileRow (x : Vec Ideal S2000x512 .f32) (q : Fin 2000) : Fin 512 → EReal := fun p => x (ix2 q p)

/-- The supply tile times the clipped bilinear product, at `(q, j)`: what firm `q` of the tile consumes of product `j`. -/
theorem pay1_apply (q : Fin 2000) (j : Fin 512) :
    k0_pay1 (F := Ideal) v0 v2 v8 (ix2 q j) = consumed (tileRow v8 q) (emb v0) (bil v2) j := by
  unfold k0_pay1
  refine (plainDot_apply _ _ _ q j).trans ?_
  unfold consumed
  refine Finset.sum_congr rfl fun p _ => congrArg₂ (· * ·) ?_ ?_
  · exact congrFun (shapeCast_self v8 _) _
  · unfold att
    refine congrArg₂ max ?_ Ideal.ofBits_zero_f32
    refine (plainDot_apply _ _ _ p j).trans (Finset.sum_congr rfl fun d _ => congrArg₂ (· * ·) ?_ ?_)
    · exact congrFun (shapeCast_self v0 _) _
    · refine (plainDot_apply _ _ _ d j).trans (Finset.sum_congr rfl fun k _ => congrArg (v2 (ix2 d k) * ·) ?_)
      exact (transpose_ix2_apply _ _ k j).trans (congrFun (shapeCast_self v0 _) _)

/-- The first stored column at row `q`: ten times the summed shortfall of firm `q` of the tile. -/
theorem pay2_apply (q : Fin 2000) (u : Fin 1) :
    k0_pay2 (F := Ideal) v0 v2 v8 v13 (ix2 q u)
      = debtRow (Ideal.ofBits .f32 0x41200000#32) (tileRow v8 q) (tileRow v13 q) (emb v0) (bil v2) := by
  unfold k0_pay2
  unfold debtRow
  refine congrArg₂ (· * ·) rfl ?_
  refine (shapeCast_a_a1_apply _ _ q u).trans ?_
  refine (rowSum_apply _ _ _ _ _ q).trans (Finset.sum_congr rfl fun j _ => ?_)
  refine congrArg₂ max (congrArg₂ (· - ·) (pay1_apply v0 v2 v8 q j) ?_) Ideal.ofBits_zero_f32
  exact congrFun (shapeCast_self v13 _) _

/-- The second stored column at row `q`: once the summed consumption of firm `q` of the tile. -/
theorem pay3_apply (q : Fin 2000) (u : Fin 1) :
    k0_pay3 (F := Ideal) v0 v2 v8 (ix2 q u)
      = consRow (Ideal.ofBits .f32 0x3F800000#32) (tileRow v8 q) (emb v0) (bil v2) := by
  unfold k0_pay3
  unfold consRow
  refine congrArg₂ (· * ·) rfl ?_
  refine (shapeCast_a_a1_apply _ _ q u).trans ?_
  exact (rowSum_apply _ _ _ _ _ q).trans (Finset.sum_congr rfl fun j _ => pay1_apply v0 v2 v8 q j)

end Cert.KernelIdeal.Rows

end
-- ==== Proof.KerArrays.lean ====
/-
  The two per-firm columns the region leaves in memory, read one firm at a time.

  The grid has 50 points; point `t` holds firms `2000 t … 2000 t + 1999`: its blocks of the padded supply table and of the
  padded inventory are those rows (all 512 columns), its blocks of the padded embeddings and of the bilinear form are the
  whole arrays, and it writes rows `2000 t … 2000 t + 1999` of each of the two `[100000, 1]` result columns. So what
  point `t` writes back at row `q` of its block is the row formula of firm `2000 t + q`, the 50 blocks tile the 100000
  rows, and after the run each column holds, at firm `r`, the row formula of firm `r` over the 512 padded products.
-/
import proofs.«168744_j74801150427802_1_alg».proof.Proof.Gen.KernelIdeal.Frame
import proofs.«168744_j74801150427802_1_alg».proof.Proof.KerRows
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Arrays

open Cert.KernelIdeal Cert.KernelIdeal.Gen Idealize.ShloMosaic.ValueIdx Cert.Inventory

variable (m : (ℓ : Loc nD τ sig) → Buf (Elt Ideal) ℓ)

theorem hz : (![0, 0] : Fin 2 → Nat) = fun _ => 0 := funext fun a => by fin_cases a <;> rfl

/-! ## What the body leaves in the two output buffers, by coordinates -/

/-- The first output buffer at row `q`: ten times the summed shortfall of firm `q` of the tile. -/
theorem out4_apply (x0 x1 : Vec Ideal S2000x512 .f32) (x2 : Vec Ideal S512x128 .f32) (x3 : Vec Ideal S128x128 .f32)
    (q : Fin 2000) (u : Fin 1) :
    out0_4 (F := Ideal) x0 x1 x2 x3 (ix2 q u)
      = debtRow (Ideal.ofBits .f32 0x41200000#32) (Rows.tileRow x0 q) (Rows.tileRow x1 q) (Rows.emb x2) (Rows.bil x3) := by
  unfold out0_4
  rw [View.canon_unit_zero hz]
  simp only [View.ld_unit_zero (S := S512x128) hz, View.ld_unit_zero (S := S128x128) hz, View.ld_unit_zero (S := S2000x512) hz]
  exact Rows.pay2_apply x2 x3 x0 x1 q u

/-- The second output buffer at row `q`: once the summed consumption of firm `q` of the tile. -/
theorem out5_apply (x0 x1 : Vec Ideal S2000x512 .f32) (x2 : Vec Ideal S512x128 .f32) (x3 : Vec Ideal S128x128 .f32)
    (q : Fin 2000) (u : Fin 1) :
    out0_5 (F := Ideal) x0 x1 x2 x3 (ix2 q u)
      = consRow (Ideal.ofBits .f32 0x3F800000#32) (Rows.tileRow x0 q) (Rows.emb x2) (Rows.bil x3) := by
  unfold out0_5
  rw [View.canon_unit_zero hz]
  simp only [View.ld_unit_zero (S := S512x128) hz, View.ld_unit_zero (S := S128x128) hz, View.ld_unit_zero (S := S2000x512) hz]
  exact Rows.pay3_apply x2 x3 x0 q u

/-! ## The blocks -/

/-- The printed index maps over the grid: the row-tiled windows are at block `(t, 0)`, the whole-array windows at `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Point `t`'s block of the padded supply table is rows `2000 t …` of it. -/
theorem iblk0_apply (c : Dev nD) (t : Fin cfg0.N) (q : Fin 2000) (p : Fin 512) (r : Fin 100000)
    (hr : r.val = t.val * 2000 + q.val) :
    (iblk m c 0 t : Vec Ideal S2000x512 .f32) (ix2 q p) = (V m c main_v20 : S100000x512.Idx → EReal) (ix2 r p) := by
  obtain ⟨e0, e1, -⟩ := idx_facts t
  unfold iblk
  rw [View.read_apply]
  show (V m c main_v20 : S100000x512.Idx → EReal) _ = _
  refine congrArg (V m c main_v20 : S100000x512.Idx → EReal) (funext fun a => Fin.ext ?_)
  match a with
  | ⟨0, _⟩ => show win0_0.index t (0 : Fin 2) * 2000 + 1 * q.val = r.val; rw [e0, hr]; omega
  | ⟨1, _⟩ => show win0_0.index t (1 : Fin 2) * 512 + 1 * p.val = p.val; rw [e1]; omega

/-- Point `t`'s block of the padded inventory is rows `2000 t …` of it. -/
theorem iblk1_apply (c : Dev nD) (t : Fin cfg0.N) (q : Fin 2000) (p : Fin 512) (r : Fin 100000)
    (hr : r.val = t.val * 2000 + q.val) :
    (iblk m c 1 t : Vec Ideal S2000x512 .f32) (ix2 q p) = (V m c main_v21 : S100000x512.Idx → EReal) (ix2 r p) := by
  obtain ⟨-, -, e0, e1, -⟩ := idx_facts t
  unfold iblk
  rw [View.read_apply]
  show (V m c main_v21 : S100000x512.Idx → EReal) _ = _
  refine congrArg (V m c main_v21 : S100000x512.Idx → EReal) (funext fun a => Fin.ext ?_)
  match a with
  | ⟨0, _⟩ => show win0_1.index t (0 : Fin 2) * 2000 + 1 * q.val = r.val; rw [e0, hr]; omega
  | ⟨1, _⟩ => show win0_1.index t (1 : Fin 2) * 512 + 1 * p.val = p.val; rw [e1]; omega

/-- Every point's block of the padded embeddings is the whole array. -/
theorem iblk2_apply (c : Dev nD) (t : Fin cfg0.N) (p : Fin 512) (d : Fin 128) :
    (iblk m c 2 t : Vec Ideal S512x128 .f32) (ix2 p d) = (V m c main_v22 : S512x128.Idx → EReal) (ix2 p d) := by
  obtain ⟨-, -, -, -, e0, e1, -⟩ := idx_facts t
  unfold iblk
  rw [View.read_apply]
  show (V m c main_v22 : S512x128.Idx → EReal) _ = _
  refine congrArg (V m c main_v22 : S512x128.Idx → EReal) (funext fun a => Fin.ext ?_)
  match a with
  | ⟨0, _⟩ => show win0_2.index t (0 : Fin 2) * 512 + 1 * p.val = p.val; rw [e0]; omega
  | ⟨1, _⟩ => show win0_2.index t (1 : Fin 2) * 128 + 1 * d.val = d.val; rw [e1]; omega

/-- Every point's block of the bilinear form is the whole array. -/
theorem iblk3_apply (c : Dev nD) (t : Fin cfg0.N) (d k : Fin 128) :
    (iblk m c 3 t : Vec Ideal S128x128 .f32) (ix2 d k) = (V m c main_arg5 : S128x128.Idx → EReal) (ix2 d k) := by
  obtain ⟨-, -, -, -, -, -, e0, e1, -⟩ := idx_facts t
  unfold iblk
  rw [View.read_apply]
  show (V m c main_arg5 : S128x128.Idx → EReal) _ = _
  refine congrArg (V m c main_arg5 : S128x128.Idx → EReal) (funext fun a => Fin.ext ?_)
  match a with
  | ⟨0, _⟩ => show win0_3.index t (0 : Fin 2) * 128 + 1 * d.val = d.val; rw [e0]; omega
  | ⟨1, _⟩ => show win0_3.index t (1 : Fin 2) * 128 + 1 * k.val = k.val; rw [e1]; omega

/-! ## The two columns after the run -/

/-- The firm an index of a `[100000, 1]` column speaks of. -/
abbrev firmOf (i : S100000x1.Idx) : Fin 100000 := ⟨(i 0).val, idx2_lt0 i⟩

/-- Row `r` of the padded supply table as the region finds it. -/
abbrev supplyRowP (c : Dev nD) (r : Fin 100000) : Fin 512 → EReal := fun p => (V m c main_v20 : S100000x512.Idx → EReal) (ix2 r p)
/-- Row `r` of the padded inventory as the region finds it. -/
abbrev invRowP (c : Dev nD) (r : Fin 100000) : Fin 512 → EReal := fun j => (V m c main_v21 : S100000x512.Idx → EReal) (ix2 r j)
/-- The padded embeddings as the region finds them. -/
abbrev embP (c : Dev nD) : Fin 512 → Fin 128 → EReal := fun p d => (V m c main_v22 : S512x128.Idx → EReal) (ix2 p d)
/-- The bilinear form as the region finds it. -/
abbrev bilP (c : Dev nD) : Fin 128 → Fin 128 → EReal := fun d k => (V m c main_arg5 : S128x128.Idx → EReal) (ix2 d k)

/-- The shortfall column: at firm `r`, ten times its summed shortfall over the padded products. -/
def debtArr (c : Dev nD) : S100000x1.Idx → EReal := fun i =>
  debtRow (Ideal.ofBits .f32 0x41200000#32) (supplyRowP m c (firmOf i)) (invRowP m c (firmOf i)) (embP m c) (bilP m c)

/-- The consumption column: at firm `r`, once its summed consumption over the padded products. -/
def consArr (c : Dev nD) : S100000x1.Idx → EReal := fun i =>
  consRow (Ideal.ofBits .f32 0x3F800000#32) (supplyRowP m c (firmOf i)) (embP m c) (bilP m c)

/-- What point `t` writes back to the shortfall column is block `t` of `debtArr`. -/
theorem flushed4_eq (c : Dev nD) (t : Fin cfg0.N) :
    (dats m 0 c).flushed 4 t = ((cfg0.win 4).blk t).view.read (Elt Ideal) (debtArr m c) := by
  show (cfg0.win 4).cut (grid0.coords t) ((dats m 0 c).after 4 t) = _
  rw [after0_4]
  funext y
  obtain ⟨q, u, rfl⟩ : ∃ (q : Fin 2000) (u : Fin 1), y = ix2 q u := ⟨y 0, y 1, eq_ix2 y⟩
  obtain ⟨-, -, -, -, -, -, -, -, e8, -⟩ := idx_facts t
  rw [View.read_apply]
  show out0_4 (F := Ideal) (iblk m c 0 t) (iblk m c 1 t) (iblk m c 2 t) (iblk m c 3 t) (ix2 q u)
    = debtArr m c (((cfg0.win 4).blk t).view.emb (ix2 q u))
  refine (out4_apply _ _ _ _ q u).trans ?_
  have hr : (firmOf (((cfg0.win 4).blk t).view.emb (ix2 q u))).val = t.val * 2000 + q.val := by
    show win0_4.index t (0 : Fin 2) * 2000 + 1 * q.val = _
    rw [e8]; omega
  unfold debtArr
  refine congr (congr (congr (congrArg (debtRow _) ?_) ?_) ?_) ?_
  · exact funext fun p => iblk0_apply m c t q p _ hr
  · exact funext fun j => iblk1_apply m c t q j _ hr
  · exact funext fun p => funext fun d => iblk2_apply m c t p d
  · exact funext fun d => funext fun k => iblk3_apply m c t d k

/-- What point `t` writes back to the consumption column is block `t` of `consArr`. -/
theorem flushed5_eq (c : Dev nD) (t : Fin cfg0.N) :
    (dats m 0 c).flushed 5 t = ((cfg0.win 5).blk t).view.read (Elt Ideal) (consArr m c) := by
  show (cfg0.win 5).cut (grid0.coords t) ((dats m 0 c).after 5 t) = _
  rw [after0_5]
  funext y
  obtain ⟨q, u, rfl⟩ : ∃ (q : Fin 2000) (u : Fin 1), y = ix2 q u := ⟨y 0, y 1, eq_ix2 y⟩
  obtain ⟨-, -, -, -, -, -, -, -, -, -, e10, -⟩ := idx_facts t
  rw [View.read_apply]
  show out0_5 (F := Ideal) (iblk m c 0 t) (iblk m c 1 t) (iblk m c 2 t) (iblk m c 3 t) (ix2 q u)
    = consArr m c (((cfg0.win 5).blk t).view.emb (ix2 q u))
  refine (out5_apply _ _ _ _ q u).trans ?_
  have hr : (firmOf (((cfg0.win 5).blk t).view.emb (ix2 q u))).val = t.val * 2000 + q.val := by
    show win0_5.index t (0 : Fin 2) * 2000 + 1 * q.val = _
    rw [e10]; omega
  unfold consArr
  refine congr (congr (congrArg (consRow _) ?_) ?_) ?_
  · exact funext fun p => iblk0_apply m c t q p _ hr
  · exact funext fun p => funext fun d => iblk2_apply m c t p d
  · exact funext fun d => funext fun k => iblk3_apply m c t d k

/-- An index of a result column is in point `t`'s block iff each coordinate is in the block's range on its axis. -/
theorem mem_blk4 (t : Fin cfg0.N) (i : S100000x1.Idx) :
    i ∈ ((cfg0.win 4).blk t).view.set ↔ ∀ a : Fin 2, win0_4.index t a * S2000x1.size a ≤ (i a).val
      ∧ (i a).val < win0_4.index t a * S2000x1.size a + S2000x1.size a := by
  show i ∈ ((View.whole main_v23_0).slice (win0_4.rect t)).set ↔ _
  rw [View.set_slice_whole, Rect.mem_set_unit]
  exact Iff.rfl

theorem mem_blk5 (t : Fin cfg0.N) (i : S100000x1.Idx) :
    i ∈ ((cfg0.win 5).blk t).view.set ↔ ∀ a : Fin 2, win0_5.index t a * S2000x1.size a ≤ (i a).val
      ∧ (i a).val < win0_5.index t a * S2000x1.size a + S2000x1.size a := by
  show i ∈ ((View.whole main_v23_1).slice (win0_5.rect t)).set ↔ _
  rw [View.set_slice_whole, Rect.mem_set_unit]
  exact Iff.rfl

/-- Row `r` of a result column lies in the block of point `r / 2000`. -/
theorem cover4 (i : S100000x1.Idx) :
    ∃ t : Fin cfg0.N, (cfg0.win 4).flush t = true ∧ i ∈ ((cfg0.win 4).blk t).view.set := by
  have hi0 : (i 0).val < 100000 := idx2_lt0 i
  have hi1 : (i 1).val < 1 := idx2_lt1 i
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, -, -, -, -, e8, e9, -⟩ := idx_facts t
  refine ⟨t, flush0_4 t, ?_⟩
  rw [mem_blk4]
  intro a
  match a with
  | ⟨0, _⟩ =>
    show win0_4.index t (0 : Fin 2) * 2000 ≤ (i 0).val ∧ (i 0).val < win0_4.index t (0 : Fin 2) * 2000 + 2000
    rw [e8, ht]; omega
  | ⟨1, _⟩ =>
    show win0_4.index t (1 : Fin 2) * 1 ≤ (i 1).val ∧ (i 1).val < win0_4.index t (1 : Fin 2) * 1 + 1
    rw [e9]; omega

theorem cover5 (i : S100000x1.Idx) :
    ∃ t : Fin cfg0.N, (cfg0.win 5).flush t = true ∧ i ∈ ((cfg0.win 5).blk t).view.set := by
  have hi0 : (i 0).val < 100000 := idx2_lt0 i
  have hi1 : (i 1).val < 1 := idx2_lt1 i
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, -, -, -, -, -, -, e10, e11⟩ := idx_facts t
  refine ⟨t, flush0_5 t, ?_⟩
  rw [mem_blk5]
  intro a
  match a with
  | ⟨0, _⟩ =>
    show win0_5.index t (0 : Fin 2) * 2000 ≤ (i 0).val ∧ (i 0).val < win0_5.index t (0 : Fin 2) * 2000 + 2000
    rw [e10, ht]; omega
  | ⟨1, _⟩ =>
    show win0_5.index t (1 : Fin 2) * 1 ≤ (i 1).val ∧ (i 1).val < win0_5.index t (1 : Fin 2) * 1 + 1
    rw [e11]; omega

/-- After the run the shortfall column is `debtArr`: the 50 blocks tile it. -/
theorem final4 (c : Dev nD) : (dats m 0 c).arrAt 4 cfg0.N = debtArr m c :=
  (dats m 0 c).arrAt_eq_of_cover 4 (debtArr m c) (fun t _ => flushed4_eq m c t) (cover4)

/-- After the run the consumption column is `consArr`. -/
theorem final5 (c : Dev nD) : (dats m 0 c).arrAt 5 cfg0.N = consArr m c :=
  (dats m 0 c).arrAt_eq_of_cover 5 (consArr m c) (fun t _ => flushed5_eq m c t) (cover5)

end Cert.KernelIdeal.Arrays

end
-- ==== Proof.PadRead.lean ====
/-
  A zero-padded rank-2 array read by coordinates.

  A host `pad` with no low and no interior padding keeps the operand's entries where they were and fills the new
  positions with the padding value. When that value is zero, each row of an array padded along its columns, and the
  family of rows of an array padded along its rows, is the operand's extended by zeros (`ZeroExt`). Generic in the
  extents and in the high-padding amounts.
-/
import proofs.«168744_j74801150427802_1_alg».proof.Proof.PadSum
import Idealize.ShloMosaic.Lib.KernelVsHost
import Idealize.ShloMosaic.Lib.ValueIdx

namespace Cert.Lib.PadRead

open Idealize.ShloMosaic Idealize.ShloMosaic.ValueIdx Cert.Inventory

variable {α : Type} [Zero α]

/-- Row `r` of an `[a, n]` array padded to `[a, N]` along its columns with a zero value is row `r` of the operand
    extended by zeros. -/
theorem pad_cols_zeroExt {a n N : ℕ} (hnN : n ≤ N) (x : (⟨2, ![a, n]⟩ : Shape).Idx → α) {u : Shape} (v : u.Idx → α)
    (hi : Fin 2 → ℕ) (h : (⟨2, ![a, n]⟩ : Shape).Pads (![0, 0] : Fin 2 → ℕ) hi ![0, 0] ⟨2, ![a, N]⟩) (hu : 0 < u.numel)
    (hv : v (Shape.Idx.first hu) = 0) (r : Fin a) :
    ZeroExt hnN (fun p : Fin n => x (ix2 r p))
      (fun p : Fin N => pad ⟨2, ![a, N]⟩ (![0, 0] : Fin 2 → ℕ) hi ![0, 0] x v h hu (ix2 r p)) where
  inside p := pad_apply_of_inside _ _ _ x v h hu (ix2 r (Fin.castLE hnN p)) (ix2 r p) fun ax => by
    match ax with
    | ⟨0, _⟩ => show r.val = 0 + r.val * (0 + 1); omega
    | ⟨1, _⟩ => show p.val = 0 + p.val * (0 + 1); omega
  beyond p hp := (pad_apply_of_not_inside _ _ _ x v h hu (ix2 r p) (1 : Fin 2) (by
    rintro ⟨-, -, h3⟩
    have h3' : (p.val - 0) / (0 + 1) < n := h3
    simp only [Nat.sub_zero, Nat.zero_add, Nat.div_one] at h3'
    omega)).trans hv

/-- The rows of an `[n, d]` array padded to `[N, d]` along its rows with a zero value are the operand's rows extended
    by zero rows. -/
theorem pad_rows_zeroExt {n N d : ℕ} (hnN : n ≤ N) (x : (⟨2, ![n, d]⟩ : Shape).Idx → α) {u : Shape} (v : u.Idx → α)
    (hi : Fin 2 → ℕ) (h : (⟨2, ![n, d]⟩ : Shape).Pads (![0, 0] : Fin 2 → ℕ) hi ![0, 0] ⟨2, ![N, d]⟩) (hu : 0 < u.numel)
    (hv : v (Shape.Idx.first hu) = 0) :
    ZeroExt hnN (fun (p : Fin n) (k : Fin d) => x (ix2 p k))
      (fun (p : Fin N) (k : Fin d) => pad ⟨2, ![N, d]⟩ (![0, 0] : Fin 2 → ℕ) hi ![0, 0] x v h hu (ix2 p k)) where
  inside p := funext fun k =>
    pad_apply_of_inside _ _ _ x v h hu (ix2 (Fin.castLE hnN p) k) (ix2 p k) fun ax => by
      match ax with
      | ⟨0, _⟩ => show p.val = 0 + p.val * (0 + 1); omega
      | ⟨1, _⟩ => show k.val = 0 + k.val * (0 + 1); omega
  beyond p hp := funext fun k => (pad_apply_of_not_inside _ _ _ x v h hu (ix2 p k) (0 : Fin 2) (by
    rintro ⟨-, -, h3⟩
    have h3' : (p.val - 0) / (0 + 1) < n := h3
    simp only [Nat.sub_zero, Nat.zero_add, Nat.div_one] at h3'
    omega)).trans hv

end Cert.Lib.PadRead
-- ==== Proof.LibColumnVec.lean ====
/-
  A column read back as a vector.

  The `[a, 1]` column that a row-wise reduction with `keepdims` leaves, reshaped to the `[a]` vector, holds at `i` the
  column's entry in row `i`: both positions are `i` in row-major order. Generic in the extent and in the element type.
-/
import Idealize.ShloMosaic.Lib.ValueLayout

namespace Cert.Lib.ColumnVec

open Idealize.ShloMosaic Idealize.ShloMosaic.ValueIdx

variable {α : Type}

/-- An `[a, 1]` column cast to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Lib.ColumnVec
-- ==== Proof.Loss.lean ====
/-
  The reported losses as one function of a per-firm vector.

  Both programs end the same way: from the two per-firm vectors `d` (weighted shortfall) and `c` (weighted consumption)
  they report the total of `d - c`, of `d` and of `c` over the 100000 firms, each divided by the number of edges,
  4·10⁶. `lossOf` is that last step, total then quotient, of any per-firm vector; it is never opened: the two programs
  are compared on the vectors going in.
-/
import Idealize.ShloMosaic.PureOps.Ideal.Laws

noncomputable section

namespace Cert.Inventory

open Idealize.ShloMosaic

/-- The total of a per-firm vector, from the zero initial value, divided by the number of edges. -/
def lossOf (hred : (⟨1, ![100000]⟩ : Shape).ReducesTo [0] ⟨0, ![]⟩) (h0 : 0 < (⟨0, ![]⟩ : Shape).numel)
    (x : FVec Ideal ⟨1, ![100000]⟩ .f32) : FVec Ideal ⟨0, ![]⟩ .f32 :=
  Host.divf (F := Ideal) (Host.reduceAdd (F := Ideal) x (constant (F := Ideal) ⟨0, ![]⟩ .f32 0x00000000#32) hred h0)
    (constant (F := Ideal) ⟨0, ![]⟩ .f32 0x4A742400#32)

end Cert.Inventory

end
-- ==== Proof.KerTail.lean ====
/-
  From the two columns to the three reported losses.

  The region finds the supply table, the inventory and the embeddings padded with zeros from 500 to 512 products, so the
  row formulas over the 512 padded products that the two columns hold are the row formulas over the 500 products of the
  supply table as the scatter left it, of the inventory and of the embeddings (the padding law). After the region the
  program reshapes the two columns to per-firm vectors `d` and `c` and reports `lossOf (d - c)`, `lossOf d`, `lossOf c`.
-/
import proofs.«168744_j74801150427802_1_alg».proof.Proof.KerArrays
import proofs.«168744_j74801150427802_1_alg».proof.Proof.PadRead
import proofs.«168744_j74801150427802_1_alg».proof.Proof.LibColumnVec
import proofs.«168744_j74801150427802_1_alg».proof.Proof.Loss
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.Tail

open Cert.KernelIdeal Cert.KernelIdeal.Gen Cert.KernelIdeal.Arrays
open Idealize.ShloMosaic.ValueIdx Cert.Inventory Cert.Lib.PadRead

variable (m : (ℓ : Loc nD τ sig) → Buf (Elt Ideal) ℓ)

/-! ## The padded arrays the region finds -/

/-- Running a list of host operations and then another is running the two lists one after the other. -/
theorem after_append (xs ys : List (HloOp τ sig (Elt Ideal))) (W : Valuation τ sig (Elt Ideal)) :
    after (xs ++ ys) W = after ys (after xs W) := by
  induction xs generalizing W with
  | nil => rfl
  | cons x xs ih => exact ih _

/-- Core `c`'s buffer contents once the scatter has run: after the host operations up to it, before the three pads. -/
abbrev G (c : Dev nD) : Valuation τ sig (Elt Ideal) :=
  after hostOps0_2 (after hostOps0_1 (after hostOps0 (fun b => m (c, b))))

/-- The supply table as the scatter left it. -/
abbrev tbl (c : Dev nD) : S100000x500.Idx → EReal := G m c (Proc.devRef .tc main_v19)
/-- The padded supply table. -/
abbrev tblP (c : Dev nD) : S100000x512.Idx → EReal := V m c main_v20
/-- The inventory. -/
abbrev inv (c : Dev nD) : S100000x500.Idx → EReal := m ((c : Thread nD τ).loc main_arg6)
/-- The padded inventory. -/
abbrev invP (c : Dev nD) : S100000x512.Idx → EReal := V m c main_v21
/-- The embeddings. -/
abbrev embA (c : Dev nD) : S500x128.Idx → EReal := m ((c : Thread nD τ).loc main_arg4)
/-- The padded embeddings. -/
abbrev embAP (c : Dev nD) : S512x128.Idx → EReal := V m c main_v22
/-- The padding value: the integer zero, converted. -/
abbrev zeroS : S_.Idx → EReal := sitofp (F := Ideal) .f32 (constantI S_ 32 0#32)

/-- The padding value is the extended real zero. -/
theorem padval_zero : zeroS (Shape.Idx.first Gen.h_S_) = 0 := by
  show (((0#32 : BitVec 32).toInt : ℝ) : EReal) = 0
  simp

/-- What the region finds is what the five padding stretches make of the contents after the scatter. -/
theorem V0_eq (c : Dev nD) :
    V0 m c = after hostOps0_7 (after hostOps0_6 (after hostOps0_5 (after hostOps0_4 (after hostOps0_3 (G m c))))) := by
  show after (List.flatten [hostOps0, hostOps0_1, hostOps0_2, hostOps0_3, hostOps0_4, hostOps0_5, hostOps0_6, hostOps0_7]) _ = _
  simp only [List.flatten_cons, List.flatten_nil, List.append_nil, after_append]

/-- When the scatter has run, the buffer of the first pad's value holds the integer zero. -/
theorem G_c5 (c : Dev nD) : (G m c (Proc.devRef .tc main_c_5) : S_.Idx → BitVec 32) = constantI S_ 32 0#32 := by
  show after hostOps0_2 _ (Proc.devRef .tc main_c_5) = _
  generalize after hostOps0_1 (after hostOps0 (fun b => m (c, b))) = W
  simp only [hostOps0_2]
  after_results

/-- Over any contents `W`, the five padding stretches leave in the padded table's buffer `W`'s table padded along the
    products with `W`'s pad value, converted. -/
theorem pads_v20 (W : Valuation τ sig (Elt Ideal)) :
    (after hostOps0_7 (after hostOps0_6 (after hostOps0_5 (after hostOps0_4 (after hostOps0_3 W)))) (Proc.devRef .tc main_v20)
        : S100000x512.Idx → EReal)
      = pad S100000x512 ![0, 0] ![0, 12] ![0, 0] (W (Proc.devRef .tc main_v19) : S100000x500.Idx → EReal)
          (sitofp (F := Ideal) .f32 (W (Proc.devRef .tc main_c_5) : S_.Idx → BitVec 32) : S_.Idx → EReal)
          Gen.pads_S100000x500_S100000x512_000_0120 Gen.h_S_ := by
  simp only [hostOps0_3, hostOps0_4, hostOps0_5, hostOps0_6, hostOps0_7]
  after_results
  rfl

/-- The padded supply table is the scattered table padded along the products. -/
theorem V20_eq (c : Dev nD) : tblP m c
    = pad S100000x512 ![0, 0] ![0, 12] ![0, 0] (tbl m c) zeroS Gen.pads_S100000x500_S100000x512_000_0120 Gen.h_S_ := by
  show V0 m c (Proc.devRef .tc main_v20) = _
  rw [V0_eq m c]
  refine (pads_v20 (G m c)).trans ?_
  rw [G_c5 m c]

/-- The padded inventory is the inventory padded along the products. -/
theorem V21_eq (c : Dev nD) : invP m c
    = pad S100000x512 ![0, 0] ![0, 12] ![0, 0] (inv m c) zeroS Gen.pads_S100000x500_S100000x512_000_0120 Gen.h_S_ := by
  dsimp only [invP, inv, V, V0]
  simp only [hostOps0, hostOps0_1, hostOps0_2, hostOps0_3, hostOps0_4, hostOps0_5, hostOps0_6, hostOps0_7, List.flatten_cons,
    List.flatten_nil, List.append_nil, List.cons_append, List.nil_append]
  after_results
  rfl

/-- The padded embeddings are the embeddings padded along the products. -/
theorem V22_eq (c : Dev nD) : embAP m c
    = pad S512x128 ![0, 0] ![12, 0] ![0, 0] (embA m c) zeroS Gen.pads_S500x128_S512x128_0120_000 Gen.h_S_ := by
  dsimp only [embAP, embA, V, V0]
  simp only [hostOps0, hostOps0_1, hostOps0_2, hostOps0_3, hostOps0_4, hostOps0_5, hostOps0_6, hostOps0_7, List.flatten_cons,
    List.flatten_nil, List.append_nil, List.cons_append, List.nil_append]
  after_results
  rfl

/-! ## The row formulas over the 500 products -/

/-- Firm `r`'s row of the supply table as the scatter left it. -/
abbrev supplyRow (c : Dev nD) (r : Fin 100000) : Fin 500 → EReal := fun p => tbl m c (ix2 r p)
/-- Firm `r`'s row of the inventory. -/
abbrev invRow (c : Dev nD) (r : Fin 100000) : Fin 500 → EReal := fun j => inv m c (ix2 r j)
/-- The embeddings by coordinates. -/
abbrev emb (c : Dev nD) : Fin 500 → Fin 128 → EReal := fun p d => embA m c (ix2 p d)
/-- The bilinear form by coordinates. -/
abbrev bil (c : Dev nD) : Fin 128 → Fin 128 → EReal :=
  fun d k => (m ((c : Thread nD τ).loc main_arg5) : S128x128.Idx → EReal) (ix2 d k)

theorem le_512 : 500 ≤ 512 := by decide

theorem supply_ext (c : Dev nD) (r : Fin 100000) : ZeroExt le_512 (supplyRow m c r) (supplyRowP m c r) := by
  have h := pad_cols_zeroExt le_512 (tbl m c) zeroS ![0, 12] Gen.pads_S100000x500_S100000x512_000_0120 Gen.h_S_ padval_zero r
  rw [← V20_eq m c] at h
  exact h

theorem inv_ext (c : Dev nD) (r : Fin 100000) : ZeroExt le_512 (invRow m c r) (invRowP m c r) := by
  have h := pad_cols_zeroExt le_512 (inv m c) zeroS ![0, 12] Gen.pads_S100000x500_S100000x512_000_0120 Gen.h_S_ padval_zero r
  rw [← V21_eq m c] at h
  exact h

theorem emb_ext (c : Dev nD) : ZeroExt le_512 (emb m c) (embP m c) := by
  have h := pad_rows_zeroExt le_512 (embA m c) zeroS ![12, 0] Gen.pads_S500x128_S512x128_0120_000 Gen.h_S_ padval_zero
  rw [← V22_eq m c] at h
  exact h

theorem bil_eq (c : Dev nD) : bilP m c = bil m c := by
  show (fun d k : Fin 128 => (V m c main_arg5 : S128x128.Idx → EReal) (ix2 d k)) = _
  rw [V_main_arg5]

/-- The shortfall column at an index: the row formula of its firm over the 500 products. -/
theorem debtArr_eq (c : Dev nD) (i : S100000x1.Idx) :
    debtArr m c i = debtRow (Ideal.ofBits .f32 0x41200000#32) (supplyRow m c (firmOf i)) (invRow m c (firmOf i)) (emb m c) (bil m c) := by
  unfold debtArr
  rw [bil_eq]
  exact debtRow_pad le_512 _ _ (supply_ext m c _) (inv_ext m c _) (emb_ext m c)

/-- The consumption column at an index: the row formula of its firm over the 500 products. -/
theorem consArr_eq (c : Dev nD) (i : S100000x1.Idx) :
    consArr m c i = consRow (Ideal.ofBits .f32 0x3F800000#32) (supplyRow m c (firmOf i)) (emb m c) (bil m c) := by
  unfold consArr
  rw [bil_eq]
  exact consRow_pad le_512 _ _ (supply_ext m c _) (emb_ext m c)

/-! ## The two per-firm vectors -/

/-- The shortfall column read back as a vector. -/
def debtVec (c : Dev nD) : S100000.Idx → EReal := shapeCast S100000 (debtArr m c) Gen.shapeCasts_S100000x1_S100000
/-- The consumption column read back as a vector. -/
def consVec (c : Dev nD) : S100000.Idx → EReal := shapeCast S100000 (consArr m c) Gen.shapeCasts_S100000x1_S100000

theorem debtVec_apply (c : Dev nD) (r : Fin 100000) :
    debtVec m c (ix1 r) = debtRow (Ideal.ofBits .f32 0x41200000#32) (supplyRow m c r) (invRow m c r) (emb m c) (bil m c) := by
  unfold debtVec
  refine (Cert.Lib.ColumnVec.shapeCast_a1_a_apply _ _ r).trans ?_
  exact debtArr_eq m c (ix2 r (0 : Fin 1))

theorem consVec_apply (c : Dev nD) (r : Fin 100000) :
    consVec m c (ix1 r) = consRow (Ideal.ofBits .f32 0x3F800000#32) (supplyRow m c r) (emb m c) (bil m c) := by
  unfold consVec
  refine (Cert.Lib.ColumnVec.shapeCast_a1_a_apply _ _ r).trans ?_
  exact consArr_eq m c (ix2 r (0 : Fin 1))

/-! ## The host operations after the region -/

theorem col4 (c : Dev nD) :
    Pipeline.withArrays (cfgs 0).spec c (V0 m c) (fun w => (dats m 0 c).arrAt w (cfgs 0).N) (Proc.devRef .tc main_v23_0)
      = debtArr m c :=
  (Pipeline.withArrays_arr spec0 launch0.win.arr_inj c _ _ 4).trans (final4 m c)

theorem col5 (c : Dev nD) :
    Pipeline.withArrays (cfgs 0).spec c (V0 m c) (fun w => (dats m 0 c).arrAt w (cfgs 0).N) (Proc.devRef .tc main_v23_1)
      = consArr m c :=
  (Pipeline.withArrays_arr spec0 launch0.win.arr_inj c _ _ 5).trans (final5 m c)

theorem tail28 (c : Dev nD) : Pipeline.afterTail₀ cfgs (dats m) 0 (V0 m) [hostOps1] c main_v28
    = lossOf Gen.reducesTo_S100000_S_d0 Gen.h_S_ (subf (debtVec m c) (consVec m c)) := by
  unfold Pipeline.afterTail₀
  show StableHlo.after hostOps1 _ (Proc.devRef .tc main_v28) = _
  after_results
  rw [col4, col5]
  rfl

theorem tail30 (c : Dev nD) : Pipeline.afterTail₀ cfgs (dats m) 0 (V0 m) [hostOps1] c main_v30
    = lossOf Gen.reducesTo_S100000_S_d0 Gen.h_S_ (debtVec m c) := by
  unfold Pipeline.afterTail₀
  show StableHlo.after hostOps1 _ (Proc.devRef .tc main_v30) = _
  after_results
  rw [col4]
  rfl

theorem tail32 (c : Dev nD) : Pipeline.afterTail₀ cfgs (dats m) 0 (V0 m) [hostOps1] c main_v32
    = lossOf Gen.reducesTo_S100000_S_d0 Gen.h_S_ (consVec m c) := by
  unfold Pipeline.afterTail₀
  show StableHlo.after hostOps1 _ (Proc.devRef .tc main_v32) = _
  after_results
  rw [col5]
  rfl

/-! ## The run, read -/

/-- Every weakly fair execution ends with the three results at `lossOf` of the per-firm vectors, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v28) = lossOf Gen.reducesTo_S100000_S_d0 Gen.h_S_ (subf (debtVec m c) (consVec m c))
      ∧ r.2.mem ((c.tc : Thread nD τ).loc main_v30) = lossOf Gen.reducesTo_S100000_S_d0 Gen.h_S_ (debtVec m c)
      ∧ r.2.mem ((c.tc : Thread nD τ).loc main_v32) = lossOf Gen.reducesTo_S100000_S_d0 Gen.h_S_ (consVec m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨((h c).2 main_v28 (Pipeline.mem_restRefs_of main_v28 (by decide) (by decide))).trans (tail28 m c),
     ((h c).2 main_v30 (Pipeline.mem_restRefs_of main_v30 (by decide) (by decide))).trans (tail30 m c),
     ((h c).2 main_v32 (Pipeline.mem_restRefs_of main_v32 (by decide) (by decide))).trans (tail32 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).1 3).trans (((dats m 0 c).arrAt_in 3 rfl _).trans ((A_eq m c 3).trans (V_main_arg5 m c))),
     ((h c).2 main_arg6 (Pipeline.mem_restRefs_of main_arg6 (by decide) (by decide))).trans (W_main_arg6 m (dats m) c)⟩)
    (run_main m ρ)

end Cert.KernelIdeal.Tail

end
-- ==== Proof.RefRows.lean ====
/-
  The reference's two per-firm vectors, read one firm at a time.

  With `S` the scattered supply table (whatever the scatter made of the edge list: it is never opened here), `E` the
  product embeddings, `B` the bilinear form and `V` the inventory, the reference computes the attention matrix
  `max (E · (B · Eᵀ)) 0`, the consumption `S · att`, and per firm ten times the summed shortfall and once the summed
  consumption. Read at firm `r` these are the row formulas `debtRow` and `consRow` of row `r` of `S` and of `V`: each
  host product is a finite sum over its contracted coordinate, each row sum is the zero initial value plus a finite sum,
  and the clip and the difference act entry by entry.
-/
import proofs.«168744_j74801150427802_1_alg».proof.Proof.Gen.ReferenceIdeal.Read
import proofs.«168744_j74801150427802_1_alg».proof.Proof.PadSum
import Idealize.ShloMosaic.Lib.ValueIdx
import Idealize.ShloMosaic.PureOps.Ideal.Laws

noncomputable section

namespace Cert.ReferenceIdeal.Rows

open Cert.ReferenceIdeal Cert.ReferenceIdeal.Read Idealize.ShloMosaic Idealize.ShloMosaic.ValueIdx Cert.Inventory

variable (x0 x2 : (⟨S4000000, .i32⟩ : BufTy).Contents (Elt Ideal)) (x3 : (⟨S4000000x4, .f32⟩ : BufTy).Contents (Elt Ideal))
  (x4 : (⟨S500x128, .f32⟩ : BufTy).Contents (Elt Ideal)) (x5 : (⟨S128x128, .f32⟩ : BufTy).Contents (Elt Ideal))
  (x6 : (⟨S100000x500, .f32⟩ : BufTy).Contents (Elt Ideal))

/-- The embeddings by coordinates. -/
abbrev emb : Fin 500 → Fin 128 → EReal := fun p d => x4 (ix2 p d)
/-- The bilinear form by coordinates. -/
abbrev bil : Fin 128 → Fin 128 → EReal := fun d k => x5 (ix2 d k)
/-- Firm `r`'s row of the supply table. -/
abbrev supplyRow (r : Fin 100000) : Fin 500 → EReal := fun p => val_main_v19 (F := Ideal) x0 x2 x3 (ix2 r p)
/-- Firm `r`'s row of the inventory. -/
abbrev invRow (r : Fin 100000) : Fin 500 → EReal := fun j => x6 (ix2 r j)

/-- The clipped bilinear product at `(p, j)` is the attention of product `p` on product `j`. -/
theorem att_eq (p j : Fin 500) : val_main_v23 (F := Ideal) x4 x5 (ix2 p j) = att (emb x4) (bil x5) p j := by
  rw [val_main_v23_apply, val_main_call1_v0_apply, val_main_call1_cst_apply, val_main_v22_apply]
  simp only [Ideal.maximumf_def, Ideal.ofBits_def, Ideal.ofBits_zero_f32]
  unfold att
  refine congrArg (max · 0) (Finset.sum_congr rfl fun d _ => ?_)
  have e1 : lidx_main_v22 (ix2 p j) d = ix2 p d :=
    funext fun a => Fin.ext (by match a with | ⟨0, _⟩ => rfl | ⟨1, _⟩ => rfl)
  rw [val_main_v21_apply, e1]
  refine congrArg (x4 (ix2 p d) * ·) (Finset.sum_congr rfl fun k _ => ?_)
  have e2 : lidx_main_v21 (ridx_main_v22 (ix2 p j) d) k = ix2 d k :=
    funext fun a => Fin.ext (by match a with | ⟨0, _⟩ => rfl | ⟨1, _⟩ => rfl)
  have e3 : idx_main_v20 (ridx_main_v21 (ridx_main_v22 (ix2 p j) d) k) = ix2 j k :=
    funext fun a => Fin.ext (by match a with | ⟨0, _⟩ => rfl | ⟨1, _⟩ => rfl)
  rw [val_main_v20_apply, e2, e3]

/-- The supply table times the attention matrix at `(r, j)` is what firm `r` consumes of product `j`. -/
theorem consumed_eq (r : Fin 100000) (j : Fin 500) :
    val_main_v24 (F := Ideal) x0 x2 x3 x4 x5 (ix2 r j) = consumed (supplyRow x0 x2 x3 r) (emb x4) (bil x5) j := by
  rw [val_main_v24_apply]
  unfold consumed
  refine Finset.sum_congr rfl fun p _ => ?_
  have e1 : lidx_main_v24 (ix2 r j) p = ix2 r p :=
    funext fun a => Fin.ext (by match a with | ⟨0, _⟩ => rfl | ⟨1, _⟩ => rfl)
  have e2 : ridx_main_v24 (ix2 r j) p = ix2 p j :=
    funext fun a => Fin.ext (by match a with | ⟨0, _⟩ => rfl | ⟨1, _⟩ => rfl)
  rw [e1, e2, att_eq]

/-- The reference's shortfall vector at firm `r`. -/
theorem debt_eq (r : Fin 100000) :
    val_main_v30 (F := Ideal) x0 x2 x3 x4 x5 x6 (ix1 r)
      = debtRow (Ideal.ofBits .f32 0x41200000#32) (supplyRow x0 x2 x3 r) (invRow x6 r) (emb x4) (bil x5) := by
  rw [val_main_v30_apply, val_main_v29_apply, val_main_cst_7_apply, val_main_v28_apply, val_main_cst_6_apply]
  simp only [Ideal.mulf_def, Ideal.ofBits_def, Ideal.ofBits_zero_f32, zero_add]
  unfold debtRow
  refine congrArg (Ideal.ofBits .f32 0x41200000#32 * ·) (Finset.sum_congr rfl fun j _ => ?_)
  have e : idx_main_v28 (ix1 r) j = ix2 r j :=
    funext fun a => Fin.ext (by match a with | ⟨0, _⟩ => rfl | ⟨1, _⟩ => rfl)
  rw [val_main_v27_apply, val_main_v26_apply, val_main_cst_5_apply, val_main_v25_apply, e, consumed_eq]
  simp only [Ideal.maximumf_def, Ideal.subf_def, Ideal.ofBits_def, Ideal.ofBits_zero_f32]

/-- The reference's consumption vector at firm `r`. -/
theorem cons_eq (r : Fin 100000) :
    val_main_v33 (F := Ideal) x0 x2 x3 x4 x5 (ix1 r)
      = consRow (Ideal.ofBits .f32 0x3F800000#32) (supplyRow x0 x2 x3 r) (emb x4) (bil x5) := by
  rw [val_main_v33_apply, val_main_v32_apply, val_main_cst_9_apply, val_main_v31_apply, val_main_cst_8_apply]
  simp only [Ideal.mulf_def, Ideal.ofBits_def, Ideal.ofBits_zero_f32, zero_add]
  unfold consRow
  refine congrArg (Ideal.ofBits .f32 0x3F800000#32 * ·) (Finset.sum_congr rfl fun j _ => ?_)
  have e : idx_main_v31 (ix1 r) j = ix2 r j :=
    funext fun a => Fin.ext (by match a with | ⟨0, _⟩ => rfl | ⟨1, _⟩ => rfl)
  rw [e, consumed_eq]

end Cert.ReferenceIdeal.Rows

end
-- ==== Proof.Bridge.lean ====
/-
  The two programs compute the same three losses.

  Both programs build the supply table from the edge list by the same operations (offset of the product ids, clip of the
  amounts, index wrap, scatter-add into zeros): one function of the three edge arrays, compared as a whole and never
  opened. From it the reference's per-firm vectors are, at firm `r`, the row formulas of row `r` over the 500 products,
  and so are the kernel's after the padding law; the three reported losses are `lossOf` of `d - c`, `d` and `c` in both.
-/
import proofs.«168744_j74801150427802_1_alg».proof.Defs
import proofs.«168744_j74801150427802_1_alg».proof.Proof.KerTail
import proofs.«168744_j74801150427802_1_alg».proof.Proof.RefRows
import proofs.«168744_j74801150427802_1_alg».proof.Proof.Gen.Pre_finite_inputs

noncomputable section

open Idealize.ShloMosaic Idealize.ShloMosaic.TcCoe Idealize.SL.Sem Idealize.ShloMosaic.StableHlo

namespace Cert.Proof.Bridge

open Idealize.ShloMosaic.ValueIdx Cert.Inventory

variable (m : (ℓ : Loc Cert.KernelIdeal.nD Cert.KernelIdeal.τ Cert.KernelIdeal.sig) → Buf (Elt Ideal) ℓ)

/-- The edge sources as the kernel's program is launched with them. -/
abbrev a0 (c : Dev Cert.KernelIdeal.nD) := m ((c.tc : Thread Cert.KernelIdeal.nD Cert.KernelIdeal.τ).loc Cert.KernelIdeal.main_arg0)
/-- The product ids. -/
abbrev a2 (c : Dev Cert.KernelIdeal.nD) := m ((c.tc : Thread Cert.KernelIdeal.nD Cert.KernelIdeal.τ).loc Cert.KernelIdeal.main_arg2)
/-- The raw messages. -/
abbrev a3 (c : Dev Cert.KernelIdeal.nD) := m ((c.tc : Thread Cert.KernelIdeal.nD Cert.KernelIdeal.τ).loc Cert.KernelIdeal.main_arg3)
/-- The embeddings. -/
abbrev a4 (c : Dev Cert.KernelIdeal.nD) := m ((c.tc : Thread Cert.KernelIdeal.nD Cert.KernelIdeal.τ).loc Cert.KernelIdeal.main_arg4)
/-- The bilinear form. -/
abbrev a5 (c : Dev Cert.KernelIdeal.nD) := m ((c.tc : Thread Cert.KernelIdeal.nD Cert.KernelIdeal.τ).loc Cert.KernelIdeal.main_arg5)
/-- The inventory. -/
abbrev a6 (c : Dev Cert.KernelIdeal.nD) := m ((c.tc : Thread Cert.KernelIdeal.nD Cert.KernelIdeal.τ).loc Cert.KernelIdeal.main_arg6)

set_option maxHeartbeats 1000000 in
/-- The supply table the kernel's program scatters is the reference's scatter of the same edge list. -/
theorem head_eq (c : Dev Cert.KernelIdeal.nD) :
    Cert.KernelIdeal.Tail.tbl m c = Cert.ReferenceIdeal.Read.val_main_v19 (F := Ideal) (a0 m c) (a2 m c) (a3 m c) := by
  show after Cert.KernelIdeal.Gen.hostOps0_2 (after Cert.KernelIdeal.Gen.hostOps0_1 (after Cert.KernelIdeal.Gen.hostOps0 (fun b => m (c, b))))
    (Proc.devRef .tc Cert.KernelIdeal.main_v19) = _
  simp only [Cert.KernelIdeal.Gen.hostOps0, Cert.KernelIdeal.Gen.hostOps0_1, Cert.KernelIdeal.Gen.hostOps0_2]
  after_results_simp
  rfl

/-- The reference's shortfall vector is the kernel's. -/
theorem debt_agree (c : Dev Cert.KernelIdeal.nD) :
    Cert.ReferenceIdeal.Read.val_main_v30 (F := Ideal) (a0 m c) (a2 m c) (a3 m c) (a4 m c) (a5 m c) (a6 m c)
      = Cert.KernelIdeal.Tail.debtVec m c := by
  funext i
  obtain ⟨r, rfl⟩ : ∃ r : Fin 100000, i = ix1 r := ⟨i 0, eq_ix1 i⟩
  rw [Cert.ReferenceIdeal.Rows.debt_eq, Cert.KernelIdeal.Tail.debtVec_apply]
  exact congrArg (fun S : Cert.KernelIdeal.S100000x500.Idx → EReal =>
    debtRow (Ideal.ofBits .f32 0x41200000#32) (fun p : Fin 500 => S (ix2 r p)) (Cert.KernelIdeal.Tail.invRow m c r)
      (Cert.KernelIdeal.Tail.emb m c) (Cert.KernelIdeal.Tail.bil m c)) (head_eq m c).symm

/-- The reference's consumption vector is the kernel's. -/
theorem cons_agree (c : Dev Cert.KernelIdeal.nD) :
    Cert.ReferenceIdeal.Read.val_main_v33 (F := Ideal) (a0 m c) (a2 m c) (a3 m c) (a4 m c) (a5 m c)
      = Cert.KernelIdeal.Tail.consVec m c := by
  funext i
  obtain ⟨r, rfl⟩ : ∃ r : Fin 100000, i = ix1 r := ⟨i 0, eq_ix1 i⟩
  rw [Cert.ReferenceIdeal.Rows.cons_eq, Cert.KernelIdeal.Tail.consVec_apply]
  exact congrArg (fun S : Cert.KernelIdeal.S100000x500.Idx → EReal =>
    consRow (Ideal.ofBits .f32 0x3F800000#32) (fun p : Fin 500 => S (ix2 r p))
      (Cert.KernelIdeal.Tail.emb m c) (Cert.KernelIdeal.Tail.bil m c)) (head_eq m c).symm

/-- The reference's first result: `lossOf` of the difference of its two vectors. -/
theorem ref36 (c : Dev Cert.KernelIdeal.nD) :
    Cert.ReferenceIdeal.Read.val_main_v36 (F := Ideal) (a0 m c) (a2 m c) (a3 m c) (a4 m c) (a5 m c) (a6 m c)
      = lossOf Cert.KernelIdeal.Gen.reducesTo_S100000_S_d0 Cert.KernelIdeal.Gen.h_S_
          (subf (Cert.KernelIdeal.Tail.debtVec m c) (Cert.KernelIdeal.Tail.consVec m c)) := by
  rw [← debt_agree, ← cons_agree]
  rfl

/-- The reference's second result: `lossOf` of its shortfall vector. -/
theorem ref38 (c : Dev Cert.KernelIdeal.nD) :
    Cert.ReferenceIdeal.Read.val_main_v38 (F := Ideal) (a0 m c) (a2 m c) (a3 m c) (a4 m c) (a5 m c) (a6 m c)
      = lossOf Cert.KernelIdeal.Gen.reducesTo_S100000_S_d0 Cert.KernelIdeal.Gen.h_S_ (Cert.KernelIdeal.Tail.debtVec m c) := by
  rw [← debt_agree]
  rfl

/-- The reference's third result: `lossOf` of its consumption vector. -/
theorem ref40 (c : Dev Cert.KernelIdeal.nD) :
    Cert.ReferenceIdeal.Read.val_main_v40 (F := Ideal) (a0 m c) (a2 m c) (a3 m c) (a4 m c) (a5 m c)
      = lossOf Cert.KernelIdeal.Gen.reducesTo_S100000_S_d0 Cert.KernelIdeal.Gen.h_S_ (Cert.KernelIdeal.Tail.consVec m c) := by
  rw [← cons_agree]
  rfl

/-- From memories agreeing on the arguments the two idealized programs end with equal results: the kernel's run
    names its three results as `lossOf` of its per-firm vectors, the reference's run states its own as the composed
    terms of its arguments, which are the same `lossOf`s once the arguments are rewritten by their agreement. -/
theorem algebraic : Cert.algebraic_KernelIdeal_ReferenceIdeal := by
  intro m ρ m' ρ' _ hagree
  refine ⟨fun c => lossOf Cert.KernelIdeal.Gen.reducesTo_S100000_S_d0 Cert.KernelIdeal.Gen.h_S_
      (subf (Cert.KernelIdeal.Tail.debtVec m c) (Cert.KernelIdeal.Tail.consVec m c)),
    fun c => lossOf Cert.KernelIdeal.Gen.reducesTo_S100000_S_d0 Cert.KernelIdeal.Gen.h_S_ (Cert.KernelIdeal.Tail.debtVec m c),
    fun c => lossOf Cert.KernelIdeal.Gen.reducesTo_S100000_S_d0 Cert.KernelIdeal.Gen.h_S_ (Cert.KernelIdeal.Tail.consVec m c),
    Cert.KernelIdeal.Tail.run m ρ, ?_⟩
  refine (θ_run Cert.ReferenceIdeal.defs _ _).mono (fun _ h c => ?_) (Cert.ReferenceIdeal.Value.run (F := Ideal) m' ρ')
  obtain ⟨h36, h38, h40, hrest⟩ := h c
  obtain ⟨e0, e1, e2, e3, e4, e5, e6⟩ := hagree c
  refine ⟨h36.trans ?_, h38.trans ?_, h40.trans ?_, hrest⟩
  · rw [Cert.ReferenceIdeal.Read.val_main_v36_eq, e0, e2, e3, e4, e5, e6]
    exact ref36 m c
  · rw [e0, e2, e3, e4, e5, e6]
    exact (Cert.ReferenceIdeal.Read.val_main_v38_eq _ _ _ _ _ _).trans (ref38 m c)
  · rw [e0, e2, e3, e4, e5]
    exact (Cert.ReferenceIdeal.Read.val_main_v40_eq _ _ _ _ _).trans (ref40 m c)

end Cert.Proof.Bridge

end
-- ==== Proof.lean ====
/-
  The inventory losses of a supply graph: a kernel tiled over the firms against its reference, over the extended reals.

  From 4·10⁶ edges (firm, product, amount) both programs scatter-add the amounts, clipped below at 1, into a
  `[100000, 500]` supply table `S`. With `E` the `[500, 128]` product embeddings, `B` the `[128, 128]` bilinear form and
  `V` the `[100000, 500]` inventory, the reference computes the attention matrix `A = max (E · (B · Eᵀ)) 0`, the consumption
  `C = S · A`, per firm `d = 10 · ∑ⱼ max (C − V) 0` and `c = 1 · ∑ⱼ C`, and reports the totals of `d − c`, `d` and `c` over
  the firms, each divided by the number of edges.

  The kernel pads the product axis of `S`, `V` and `E` from 500 to 512 with zeros, and on a grid of 50 tiles of 2000 firms
  computes the same `A` (now `[512, 512]`), `S · A` with both operands passed through bf16 (the identity on the extended
  reals), and the two per-firm sums over 512 products as `[2000, 1]` columns; the host then reshapes the columns and
  takes the same three totals and quotients.

  Why the two agree: a padded row of `E` is zero, so its column of `B · Eᵀ`, its row and its column of `A` are zero
  (`x · 0 = 0` for every extended real, `max 0 0 = 0`); a padded entry of `S` contributes `0 · A = 0` to `C`; a padded
  column of `C` is zero and its shortfall is `max (0 − 0) 0 = 0`; and a finite sum whose last twelve terms vanish is the
  sum of the first 500 (Proof/PadSum.lean). No step distributes a product over a sum or cancels, so nothing asks the
  inputs to be finite. The scatter that builds `S` and the final total-and-quotient are the same operations in both
  programs and are compared as wholes (Proof/Bridge.lean, Proof/Loss.lean).

  The modules: PadSum (the row formulas and the padding law), RefRows (the reference's vectors at a firm), KerRows (what
  the kernel body stores at a row), KerArrays (blocks, write-backs, the cover, the two columns after the run), KerTail
  (the padded arrays, the padding law applied, the host operations after the region, the run), Bridge (the comparison).
-/
import proofs.«168744_j74801150427802_1_alg».proof.Defs
import proofs.«168744_j74801150427802_1_alg».proof.Proof.Gen.Kernel
import proofs.«168744_j74801150427802_1_alg».proof.Proof.Gen.Kernel.Frame
import proofs.«168744_j74801150427802_1_alg».proof.Proof.Gen.KernelIdeal
import proofs.«168744_j74801150427802_1_alg».proof.Proof.Gen.KernelIdeal.Frame
import proofs.«168744_j74801150427802_1_alg».proof.Proof.Gen.ReferenceIdeal
import proofs.«168744_j74801150427802_1_alg».proof.Proof.Gen.ReferenceIdeal.Run
import proofs.«168744_j74801150427802_1_alg».proof.Proof.Gen.ReferenceIdeal.Read
import proofs.«168744_j74801150427802_1_alg».proof.Proof.Gen.Pre_finite_inputs
import proofs.«168744_j74801150427802_1_alg».proof.Proof.Bridge
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, Cert.Proof.Bridge.algebraic⟩

end Cert.Proof

end
